-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S4000000x3 : Shape := ⟨2, ![4000000, 3]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S1000000 .f32) (main_arg1 : IVec S4000000x3 32) (main_arg2 : IVec S4000000x3 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  main_v3
-- ==== Kernel.lean ====
abbrev S1000000 : Shape := ⟨1, ![1000000]⟩
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S1x4000000 : Shape := ⟨2, ![1, 4000000]⟩
abbrev S3x4000000 : Shape := ⟨2, ![3, 4000000]⟩
abbrev S1x1 : Shape := ⟨2, ![1, 1]⟩
abbrev S3x80000 : Shape := ⟨2, ![3, 80000]⟩
abbrev S1x80000 : Shape := ⟨2, ![1, 80000]⟩
abbrev S80000 : Shape := ⟨1, ![80000]⟩
abbrev S1 : Shape := ⟨1, ![1]⟩

abbrev nBuf : Space → Nat
  | .hbm => 57
  | .vmem => 12
  | .smem => 0
  | _ => 0

abbrev bufTy : (tb : Table) → Fin (tcTables nBuf tb) → BufTy
  | .hbm, ⟨0, _⟩ => ⟨S1000000, .f32⟩
  | .hbm, ⟨1, _⟩ => ⟨S4000000x3, .i32⟩
  | .hbm, ⟨2, _⟩ => ⟨S4000000x3, .i32⟩
  | .hbm, ⟨3, _⟩ => ⟨S1000000, .f32⟩
  | .hbm, ⟨4, _⟩ => ⟨S4000000x1, .i32⟩
  | .hbm, ⟨5, _⟩ => ⟨S4000000, .i32⟩
  | .hbm, ⟨6, _⟩ => ⟨S4000000x1, .i32⟩
  | .hbm, ⟨7, _⟩ => ⟨S4000000, .i32⟩
  | .hbm, ⟨8, _⟩ => ⟨S4000000x1, .i32⟩
  | .hbm, ⟨9, _⟩ => ⟨S4000000, .i32⟩
  | .hbm, ⟨10, _⟩ => ⟨S4000000x1, .i32⟩
  | .hbm, ⟨11, _⟩ => ⟨S4000000, .i32⟩
  | .hbm, ⟨12, _⟩ => ⟨S4000000x1, .i32⟩
  | .hbm, ⟨13, _⟩ => ⟨S4000000, .i32⟩
  | .hbm, ⟨14, _⟩ => ⟨S4000000x1, .i32⟩
  | .hbm, ⟨15, _⟩ => ⟨S4000000, .i32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S4000000, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000, .f32⟩
  | .hbm, ⟨34, _⟩ => ⟨S_, .i32⟩
  | .hbm, ⟨35, _⟩ => ⟨S4000000, .i32⟩
  | .hbm, ⟨36, _⟩ => ⟨S4000000, .i1⟩
  | .hbm, ⟨37, _⟩ => ⟨S_, .i32⟩
  | .hbm, ⟨38, _⟩ => ⟨S4000000, .i32⟩
  | .hbm, ⟨39, _⟩ => ⟨S4000000, .i32⟩
  | .hbm, ⟨40, _⟩ => ⟨S4000000, .i32⟩
  | .hbm, ⟨41, _⟩ => ⟨S4000000x1, .i32⟩
  | .hbm, ⟨42, _⟩ => ⟨S4000000, .f32⟩
  | .hbm, ⟨43, _⟩ => ⟨S1x4000000, .f32⟩
  | .hbm, ⟨44, _⟩ => ⟨S1x4000000, .f32⟩
  | .hbm, ⟨45, _⟩ => ⟨S1x4000000, .f32⟩
  | .hbm, ⟨46, _⟩ => ⟨S3x4000000, .f32⟩
  | .hbm, ⟨47, _⟩ => ⟨S1x4000000, .i32⟩
  | .hbm, ⟨48, _⟩ => ⟨S1x4000000, .i32⟩
  | .hbm, ⟨49, _⟩ => ⟨S1x4000000, .i32⟩
  | .hbm, ⟨50, _⟩ => ⟨S3x4000000, .i32⟩
  | .hbm, ⟨51, _⟩ => ⟨S1x4000000, .f32⟩
  | .hbm, ⟨52, _⟩ => ⟨S1x1, .f32⟩
  | .hbm, ⟨53, _⟩ => ⟨S1x1, .f32⟩
  | .hbm, ⟨54, _⟩ => ⟨S4000000, .f32⟩
  | .hbm, ⟨55, _⟩ => ⟨S_, .f32⟩
  | .hbm, ⟨56, _⟩ => ⟨S_, .f32⟩
  | .local _ .vmem, ⟨0, _⟩ => ⟨S1000000, .f32⟩
  | .local _ .vmem, ⟨1, _⟩ => ⟨S1000000, .f32⟩
  | .local _ .vmem, ⟨2, _⟩ => ⟨S3x80000, .f32⟩
  | .local _ .vmem, ⟨3, _⟩ => ⟨S3x80000, .f32⟩
  | .local _ .vmem, ⟨4, _⟩ => ⟨S3x80000, .i32⟩
  | .local _ .vmem, ⟨5, _⟩ => ⟨S3x80000, .i32⟩
  | .local _ .vmem, ⟨6, _⟩ => ⟨S1x80000, .f32⟩
  | .local _ .vmem, ⟨7, _⟩ => ⟨S1x80000, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1000000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v34 : BitVec 1 := Scalar.cmpi .eq arg0 c49_i32
  let v35 : BitVec 32 := Scalar.extui v34
  let c0_i32_20 : BitVec 32 := 0#32
  let v36 : BitVec 1 := Scalar.cmpi .ne v35 c0_i32_20
  v36

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3x80000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x80000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x80000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1000000_S1000000_0 : ∀ a, (![0] : Fin 1 → Nat) a + S1000000.size a ≤ S1000000.size a
  h_S1000000 : 0 < S1000000.numel
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000_S1x4000000_1 : S4000000.BroadcastsInDim S1x4000000 (![1] : Fin 1 → Fin S1x4000000.rank)
  concatenates_S1x4000000_S1x4000000_S1x4000000_S3x4000000_d0 : Shape.Concatenates [S1x4000000, S1x4000000, S1x4000000] S3x4000000 0
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  reduces_S3x80000_S80000 : S3x80000.Reduces [0] S80000
  shapeCasts_S80000_S1x80000 : S80000.ShapeCasts S1x80000
  inb_S1x80000_S1x80000_0_0 : ∀ a, (![0, 0] : Fin 2 → Nat) a + S1x80000.size a ≤ S1x80000.size a
  h_S1x80000 : 0 < S1x80000.numel
  reduces_S1x80000_S1 : S1x80000.Reduces [1] S1
  shapeCasts_S1_S1x1 : S1.ShapeCasts S1x1
  shapeCasts_S1x4000000_S4000000 : S1x4000000.ShapeCasts S4000000
  shapeCasts_S1x1_S_ : S1x1.ShapeCasts S_
  gather_S1000000_S4000000x1_S4000000_n_0_n_n_0_1_1_wf : GatherDims.WF S1000000 S4000000x1 S4000000 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000000.size a ≤ S1000000.size a
  hwx0_0 : ∀ i : grid0.Coords, EltTy.bits .f32 = 32 ∨ (Rect.block (s := S1000000) S1000000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000000.size a ≤ S1000000.size a
  hwx0_1 : ∀ i : grid0.Coords, EltTy.bits .f32 = 32 ∨ (Rect.block (s := S1000000) S1000000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x80000.size a ≤ S3x4000000.size a
  hwx1_0 : ∀ i : grid1.Coords, EltTy.bits .f32 = 32 ∨ (Rect.block (s := S3x4000000) S3x80000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x80000.size a ≤ S3x4000000.size a
  hwx1_1 : ∀ i : grid1.Coords, EltTy.bits .i32 = 32 ∨ (Rect.block (s := S3x4000000) S3x80000.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x80000.size a ≤ S1x4000000.size a
  hwx1_2 : ∀ i : grid1.Coords, EltTy.bits .f32 = 32 ∨ (Rect.block (s := S1x4000000) S1x80000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S1000000_S4000000x1_S4000000_n_0_n_n_0_1_1 : GatherDims S1000000 S4000000x1 S4000000 where
  offsetDims := []
  collapsedSliceDims := [0]
  operandBatchingDims := []
  startIndicesBatchingDims := []
  startIndexMap := [0]
  indexVectorDim := 1
  sliceSizes := ![1]
  wf := gather_S1000000_S4000000x1_S4000000_n_0_n_n_0_1_1_wf

abbrev win0_0 : Pipeline.Window sig grid0 :=
  Pipeline.Window.ofSpec (Memref.whole main_arg0) S1000000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v37) S3x80000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S3x80000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42_0) S1x80000.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42_1) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42_2) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1000000 : Shape := ⟨1, ![1000000]⟩
abbrev S4000000x3 : Shape := ⟨2, ![4000000, 3]⟩
abbrev S_ : Shape := ⟨0, ![]⟩
abbrev S4000000x3x1 : Shape := ⟨3, ![4000000, 3, 1]⟩
abbrev S4000000 : Shape := ⟨1, ![4000000]⟩

abbrev nBuf : Space → Nat
  | .hbm => 37
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S4000000x3, .i32⟩
  | .hbm, ⟨2, _⟩ => ⟨S4000000x3, .i32⟩
  | .hbm, ⟨3, _⟩ => ⟨S1000000, .f32⟩
  | .hbm, ⟨4, _⟩ => ⟨S1000000, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S_, .f32⟩
  | .hbm, ⟨9, _⟩ => ⟨S1000000, .f32⟩
  | .hbm, ⟨10, _⟩ => ⟨S1000000, .f32⟩
  | .hbm, ⟨11, _⟩ => ⟨S_, .i32⟩
  | .hbm, ⟨12, _⟩ => ⟨S4000000x3, .i32⟩
  | .hbm, ⟨13, _⟩ => ⟨S4000000x3, .i1⟩
  | .hbm, ⟨14, _⟩ => ⟨S_, .i32⟩
  | .hbm, ⟨15, _⟩ => ⟨S4000000x3, .i32⟩
  | .hbm, ⟨16, _⟩ => ⟨S4000000x3, .i32⟩
  | .hbm, ⟨17, _⟩ => ⟨S4000000x3, .i32⟩
  | .hbm, ⟨18, _⟩ => ⟨S4000000x3x1, .i32⟩
  | .hbm, ⟨19, _⟩ => ⟨S4000000x3, .f32⟩
  | .hbm, ⟨20, _⟩ => ⟨S_, .i32⟩
  | .hbm, ⟨21, _⟩ => ⟨S4000000x3, .i32⟩
  | .hbm, ⟨22, _⟩ => ⟨S4000000x3, .i1⟩
  | .hbm, ⟨23, _⟩ => ⟨S_, .f32⟩
  | .hbm, ⟨24, _⟩ => ⟨S4000000x3, .f32⟩
  | .hbm, ⟨25, _⟩ => ⟨S4000000x3, .f32⟩
  | .hbm, ⟨26, _⟩ => ⟨S4000000x3, .f32⟩
  | .hbm, ⟨27, _⟩ => ⟨S_, .f32⟩
  | .hbm, ⟨28, _⟩ => ⟨S4000000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4000000, .f32⟩
  | .hbm, ⟨33, _⟩ => ⟨S4000000, .i1⟩
  | .hbm, ⟨34, _⟩ => ⟨S4000000, .f32⟩
  | .hbm, ⟨35, _⟩ => ⟨S_, .f32⟩
  | .hbm, ⟨36, _⟩ => ⟨S_, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S4000000x3 : S_.BroadcastsInDim S4000000x3 (![] : Fin 0 → Fin S4000000x3.rank)
  bcast_S4000000x3_S4000000x3x1_0_1 : S4000000x3.BroadcastsInDim S4000000x3x1 (![0, 1] : Fin 2 → Fin S4000000x3x1.rank)
  reducesTo_S4000000x3_S4000000_d1 : S4000000x3.ReducesTo [1] S4000000
  h_S_ : 0 < S_.numel
  reducesTo_S4000000_S_d0 : S4000000.ReducesTo [0] S_
  bcast_S_S4000000 : S_.BroadcastsInDim S4000000 (![] : Fin 0 → Fin S4000000.rank)
  gather_S1000000_S4000000x3x1_S4000000x3_n_0_n_n_0_2_1_wf : GatherDims.WF S1000000 S4000000x3x1 S4000000x3 [] [0] [] [0] [] 2 ![1]

variable [Facts₀]

def gather_S1000000_S4000000x3x1_S4000000x3_n_0_n_n_0_2_1 : GatherDims S1000000 S4000000x3x1 S4000000x3 where
  offsetDims := []
  collapsedSliceDims := [0]
  operandBatchingDims := []
  startIndicesBatchingDims := []
  startIndexMap := [0]
  indexVectorDim := 2
  sliceSizes := ![1]
  wf := gather_S1000000_S4000000x3x1_S4000000x3_n_0_n_n_0_2_1_wf

class Facts : Prop extends Facts₀ where

variable [Facts]
-- ==== Proof.KReg0.lean ====
/- The logistic kernel's region (custom_call 0): one grid point whose input block is the whole input array and whose
   output block is the whole output array. At a parameter `V` (the TensorCore's buffer contents when the region is
   entered): the windows' blocks, what the body's one store leaves in the output's buffer, the body's triple, the
   pipeline's proof data, the body obligation, and the two arrays' contents when the region is left — the input array
   as found, the output array at the logistic of the whole input array. -/
import proofs.«427304_j81003083202771_3_alg».proof.Proof.Gen.Kernel.Launch
import proofs.«427304_j81003083202771_3_alg».proof.Proof.Gen.Kernel.Skeleton
import proofs.«427304_j81003083202771_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Reg0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block when the body runs, for any proof data over `V`'s input array
    whose body leaves that block where it found it: the window is an input, never idle, uncut. -/
theorem input_found {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-! ## What the body leaves in the output's buffer -/

/-- The rectangle of the body's load and of its store: all of a staging buffer, at offset zero. -/
abbrev allOf : Rect S1000000 := Rect.unit (s := S1000000) ![0] S1000000.size inb_S1000000_S1000000_0

/-- The offset, however spelt, is zero on the one axis. -/
theorem off_zero : (![0] : Fin S1000000.rank → Nat) = fun _ => 0 := funext fun a => by
  have : a = 0 := Subsingleton.elim _ _
  subst this; rfl

/-- The output's staging buffer after the body, from the input's block `x`: its one store, of the logistic of what
    the load read of `x`. -/
def stored (x : Vec F S1000000 .f32) : Vec F S1000000 .f32 :=
  View.canon [⟨allOf, k0_pay1 (View.ld x allOf)⟩]

/-- The one store covers the buffer: every index lies in the whole-buffer rectangle. -/
theorem stored_covers (p : Vec F S1000000 .f32) (y : S1000000.Idx) :
    ∃ pc ∈ ([⟨allOf, p⟩] : List (View.Piece (Elt F) S1000000 .f32)), y ∈ pc.1.set :=
  ⟨_, List.mem_singleton_self _, View.mem_set_unit_zero off_zero inb_S1000000_S1000000_0 y⟩

/-- In closed form: the logistic of the block, entry by entry. -/
theorem stored_eq (x : Vec F S1000000 .f32) : stored x = k0_pay1 x := by
  unfold stored
  rw [View.canon_unit_zero off_zero, View.ld_unit_zero off_zero]

/-! ## The body's triple -/

set_option maxHeartbeats 1000000 in
/-- The body on whole staging memrefs — the input's at read contents `x`, the output's at anything — runs to the
    continuation holding the input's as it was and the output's at `stored x`: it loads the input's buffer, loads
    the output's (a value it never uses), and stores the logistic of the first load over all of the output's. -/
theorem body_triple (c : Dev nD) (E : Set ℕ) (i : grid0.Coords)
    (src : Memref sig .tc .vmem S1000000 .f32) (hsrc : src.IsWhole) (dst : Memref sig .tc .vmem S1000000 .f32) (hdst : dst.IsWhole)
    (x : Vec F S1000000 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (stored x)) -∗ K ⟨⟩))
      ⊢ wp frame (wpE (defs₀ (F := F)) Variants.none c none) E (cc0__sigmoid_kernel i src hsrc dst hdst) K := by
  simp only [cc0__sigmoid_kernel_eq_skeleton]; unfold cc0__sigmoid_kernel_skel
  unfold owns
  iintro ⟨⟨%f0, %hf0, H0⟩, ⟨%d1, %f1, -, H1⟩, Hk⟩
  subst hf0
  sl_exec
  sl_step
  iapply Hk
  isplitl [H0]
  · iexists f0; isplitr
    · ipureintro; rfl
    · iexact H0
  · iexists _; isplitr
    swap
    · iexact H1
    · ipureintro
      exact View.read_writes_eq_canon _ _ _ (stored_covers _)

/-! ## The pipeline's proof data -/

/-- The proof data of the region on core `c`: the arrays as the region finds them; after the body the input's buffer
    at the input's block and the output's at what the one store leaves of it; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => stored (iblk0 V c 0 t)
  Φ _ := Pipeline.ΦA spec0 c
  q _ := fullShare
  owed _ := 0

/-- The proof data's arrays are the contents the region is entered at. -/
theorem A_eq0 (c : Dev nD) (w : Fin cfg0.W) : (dat0 V c).A w = V c (Pipeline.arrRef spec0 w) := by
  dsimp only [dat0]

/-- What the body leaves, window by window. -/
theorem after_input (c : Dev nD) (t : Fin cfg0.N) : (dat0 V c).after 0 t = iblk0 V c 0 t := by dsimp only [dat0]
theorem after_output (c : Dev nD) (t : Fin cfg0.N) : (dat0 V c).after 1 t = stored (iblk0 V c 0 t) := by dsimp only [dat0]

/-- The input's buffer holds the input's block when the body runs. -/
theorem before_input (c : Dev nD) (t : Fin cfg0.N) (d) : (dat0 V c).before 0 t d = iblk0 V c 0 t :=
  input_found V (dat0 V c) (A_eq0 V c 0) (after_input V c) t d

/-! ## The body obligation -/

/-- What the body is called with at point `t`, the two windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at a point: the input's memref holds its block, so the body's triple applies; the invariant and what
    the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_input]
  rw [show (dat0 V c).Φ t.succ = (dat0 V c).Φ t.castSucc from rfl,
    show (dat0 V c).owesAt () t.succ = (dat0 V c).owesAt () t.castSucc from rfl,
    after_input, after_output]
  iintro ⟨HΦ, Ho, ⟨%d0, Hin⟩, ⟨%d1, Hout⟩⟩
  iapply (body_triple c Set.univ _ _ _ _ _ (iblk0 V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

/-- The library's body obligation, at every point. -/
theorem body_obligation0 (c : Dev nD) : BodyObligation (dat0 (F := F) V c) (defs₀ (F := F)) Variants.none () Set.univ := fun t => by
  rw [bigSep_W0, bigSep_W0]
  exact body_at V c t

/-! ## The arrays when the region is left -/

/-- The input array is never written back: it ends as the region found it. -/
theorem final0_in (c : Dev nD) : (dat0 V c).arrAt 0 cfg0.N = V c (Pipeline.arrRef spec0 0) :=
  ((dat0 V c).arrAt_in 0 rfl cfg0.N).trans (A_eq0 V c 0)

/-- Both windows' blocks start at element zero of their arrays at every point: the index maps are constantly zero. -/
theorem input_offset_zero (t : Fin cfg0.N) : (fun a => win0_0.index t a * main_arg0.ty.shape.size a) = fun _ => 0 :=
  funext fun a => by
    have h : win0_0.index t a = 0 := match a with | ⟨0, _⟩ => rfl
    show win0_0.index t a * _ = 0
    rw [h, Nat.zero_mul]
theorem output_offset_zero (t : Fin cfg0.N) : (fun a => win0_1.index t a * main_v0.ty.shape.size a) = fun _ => 0 :=
  funext fun a => by
    have h : win0_1.index t a = 0 := match a with | ⟨0, _⟩ => rfl
    show win0_1.index t a * _ = 0
    rw [h, Nat.zero_mul]

/-- The input's block at any point is the whole input array. -/
theorem input_block_eq (c : Dev nD) (t : Fin cfg0.N) : iblk0 V c 0 t = V c main_arg0 := by
  unfold iblk0
  exact Memref.read_access_unit_zero (Elt F) main_arg0 (input_offset_zero t) (fun a => by rw [congrFun (input_offset_zero t) a]; simp) (V c main_arg0)

/-- The whole output array's contents when the region is left: the logistic of the whole input array. -/
abbrev logisticOfInput (c : Dev nD) : Buf (Elt F) ((c : Thread nD τ).loc main_v0) :=
  (k0_pay1 (V c main_arg0) : FVec F S1000000 .f32)

/-- What the one write-back writes is the block of that array at its point: the block is the whole array. -/
theorem flushed_output (c : Dev nD) (t : Fin cfg0.N) :
    (dat0 V c).flushed 1 t = ((cfg0.win 1).blk t).view.read (Elt F) (logisticOfInput V c) := by
  show (cfg0.win 1).cut (grid0.coords t) ((dat0 V c).after 1 t) = _
  rw [after_output, stored_eq, input_block_eq]
  exact (Memref.read_access_unit_zero (Elt F) main_v0 (output_offset_zero t) (fun a => by rw [congrFun (output_offset_zero t) a]; simp) (logisticOfInput V c)).symm

/-- The output array ends at the logistic of the whole input array: the one point writes its block back, and that
    block is the whole array. -/
theorem final0_out (c : Dev nD) : (dat0 V c).arrAt 1 cfg0.N = logisticOfInput V c :=
  (dat0 V c).arrAt_eq_of_cover 1 (logisticOfInput V c) (fun t _ => flushed_output V c t) fun i =>
    ⟨t0_0, flush0_1 t0_0, by
      show i ∈ ((View.whole main_v0).slice (win0_1.rect t0_0)).set
      rw [View.set_slice_whole]
      exact View.mem_set_unit_zero (output_offset_zero t0_0) _ i⟩

/-- The same, entry by entry. -/
theorem final0_out_apply (c : Dev nD) (i : S1000000.Idx) :
    ((dat0 V c).arrAt 1 cfg0.N : S1000000.Idx → Elt F .f32) i = FloatOps.logistic ((V c main_arg0 : S1000000.Idx → Elt F .f32) i) := by
  rw [final0_out]; rfl

end Cert.Kernel.Reg0

end
-- ==== Proof.KReg1.lean ====
/-
  The second kernel's region: per clause block, the clause satisfactions (the largest of three literal values), a running
  minimum and a running count of satisfactions above one half, carried in two one-element accumulators from grid point to
  grid point and copied to the two scalar outputs at the last point. Here: the body's triple in its three cases (first
  point, a middle point, last point), what the accumulators hold after each point, the region's proof data and the body
  obligation at every point. Stated for any float instance and at any contents `V` of the buffers at the region's entry.
-/
import proofs.«427304_j81003083202771_3_alg».proof.Proof.Gen.Kernel.Launch
import proofs.«427304_j81003083202771_3_alg».proof.Proof.Gen.Kernel.Skeleton
import proofs.«427304_j81003083202771_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branches

The second kernel's body resets its two one-element accumulators (running minimum, running count) when the grid
coordinate is 0, and copies them to its two scalar outputs when the coordinate is 49. -/

/-- The first branch is taken: the grid coordinate is 0. -/
abbrev cond1_0 (i : grid1.Coords) : Prop := (Scalar.cmpi .ne (Scalar.extui (Scalar.cmpi .eq (BitVec.ofNat 32 (i 0).val) 0#32)) 0#32) = 1#1
/-- The second branch is taken: the grid coordinate is 49. -/
abbrev cond1_1 (i : grid1.Coords) : Prop := k1_cond2 i = 1#1

/-- The first branch is taken at the first point only. -/
theorem hcond1_0 : ∀ t : Fin cfg1.N, cond1_0 (grid1.coords t) ↔ t.val = 0 :=
  (by decide +kernel : ∀ t : Fin grid1.N, cond1_0 (grid1.coords t) ↔ t.val = 0)
/-- The second branch is taken at the last point only. -/
theorem hcond1_1 : ∀ t : Fin cfg1.N, cond1_1 (grid1.coords t) ↔ t.val = 49 :=
  (by decide +kernel : ∀ t : Fin grid1.N, cond1_1 (grid1.coords t) ↔ t.val = 49)

/-- The origin of a rank-2 rectangle. -/
theorem hz2 : (![0, 0] : Fin 2 → Nat) = fun _ => 0 := by funext a; fin_cases a <;> rfl

/-- A store of a whole buffer, made last, leaves its payload whatever was stored before. -/
theorem read_writes_whole_last {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩)]
  exact View.canon_cons_unit_zero rfl _ w L

/-! ## What one pass of the body leaves in the accumulators -/

/-- The running minimum after a pass over the blocks `x0` (literal values) and `x1` (sign words), from `a`. -/
abbrev stepMin (x0 : Vec F S3x80000 .f32) (x1 : Vec F S3x80000 .i32) (a : Vec F S1x1 .f32) : Vec F S1x1 .f32 := k1_pay5 x0 x1 a
/-- The running count after a pass, from `b`. -/
abbrev stepCnt (x0 : Vec F S3x80000 .f32) (x1 : Vec F S3x80000 .i32) (b : Vec F S1x1 .f32) : Vec F S1x1 .f32 := k1_pay1 (k1_pay6 x0 x1 b)

/-! ## The body's triple, case by case -/

set_option maxHeartbeats 4000000 in
/-- A middle point (neither branch taken): the clause block is stored, both accumulators step, the scalar outputs'
    buffers are left as found. -/
theorem run_mid (c : Dev nD) (i : grid1.Coords) (arg1 : Memref sig .tc .vmem S3x80000 .f32) (harg1 : arg1.IsWhole) (arg2 : Memref sig .tc .vmem S3x80000 .i32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole)
    (hc0 : ¬cond1_0 i) (hc1 : ¬cond1_1 i)
    (x0 : Vec F S3x80000 .f32) (x1 : Vec F S3x80000 .i32) (a b d4 d5 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare d4 ∗ owns (c : Thread nD τ) arg5 fullShare d5 ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare (k1_pay4 x0 x1)
            ∗ owns (c : Thread nD τ) arg4 fullShare d4 ∗ owns (c : Thread nD τ) arg5 fullShare d5 ∗ owns (c : Thread nD τ) arg6 fullShare (stepMin x0 x1 a) ∗ owns (c : Thread nD τ) arg7 fullShare (stepCnt x0 x1 b)) -∗ K ⟨⟩))
      ⊢ wp frame (wpE (defs₀ (F := F)) Variants.none c none) E (cc1__clause_reduce_kernel i arg1 harg1 arg2 harg2 arg3 harg3 arg4 harg4 arg5 harg5 arg6 harg6 arg7 harg7) K := by
  simp only [cc1__clause_reduce_kernel_eq_skeleton]; unfold cc1__clause_reduce_kernel_skel
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  iexists _; isplitr
  swap; · iexact H7
  ipureintro
  (try sl_unfold_words)
  rw [read_writes_whole_last _ _ hz2]
  (try sl_unfold_words)
  simp only [View.readAt_eq_ld, harg1.read_unread, harg2.read_unread, harg6.read_unread, harg7.read_unread, View.ld_unit_zero (S := S3x80000) hz2, View.ld_unit_zero (S := S1x1) hz2, View.readCov_unit_zero (S := S1x1) _ hz2]

set_option maxHeartbeats 4000000 in
/-- The first point (first branch taken): the accumulators are reset to +∞ and 0, then step. -/
theorem run_first (c : Dev nD) (i : grid1.Coords) (arg1 : Memref sig .tc .vmem S3x80000 .f32) (harg1 : arg1.IsWhole) (arg2 : Memref sig .tc .vmem S3x80000 .i32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole)
    (hc0 : cond1_0 i) (hc1 : ¬cond1_1 i)
    (x0 : Vec F S3x80000 .f32) (x1 : Vec F S3x80000 .i32) (d4 d5 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare d4 ∗ owns (c : Thread nD τ) arg5 fullShare d5 ∗ (∃ a, owns (c : Thread nD τ) arg6 fullShare a) ∗ (∃ b, owns (c : Thread nD τ) arg7 fullShare b)
        ∗ (iprop(owns (c : Thread nD τ) arg1 fullShare x0 ∗ owns (c : Thread nD τ) arg2 fullShare x1 ∗ owns (c : Thread nD τ) arg3 fullShare (k1_pay4 x0 x1)
            ∗ owns (c : Thread nD τ) arg4 fullShare d4 ∗ owns (c : Thread nD τ) arg5 fullShare d5 ∗ owns (c : Thread nD τ) arg6 fullShare (stepMin x0 x1 k1_pay2) ∗ owns (c : Thread nD τ) arg7 fullShare (stepCnt x0 x1 k1_pay3)) -∗ K ⟨⟩))
      ⊢ wp frame (wpE (defs₀ (F := F)) Variants.none c none) E (cc1__clause_reduce_kernel i arg1 harg1 arg2 harg2 arg3 harg3 arg4 harg4 arg5 harg5 arg6 harg6 arg7 harg7) K := by
  simp only [cc1__clause_reduce_kernel_eq_skeleton]; unfold cc1__clause_reduce_kernel_skel
  unfold owns
  iintro ⟨⟨%f1, %hf1, H1⟩, ⟨%f2, %hf2, H2⟩, ⟨%d3, %f3, -, H3⟩, ⟨%f4, %hf4, H4⟩, ⟨%f5, %hf5, H5⟩, ⟨%a, %f6, -, H6⟩, ⟨%b, %f7, -, H7⟩, Hk⟩
  obtain rfl := harg1.eq_unread hf1; obtain rfl := harg2.eq_unread hf2; obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  iexists _; isplitr
  swap; · iexact H7
  ipureintro
  (try sl_unfold_words)
  rw [read_writes_whole_last _ _ hz2]
  (try sl_unfold_words)
  simp only [View.readAt_eq_ld, harg1.read_unread, harg2.read_unread, harg6.read_unread, harg7.read_unread, View.ld_unit_zero (S := S3x80000) hz2, View.ld_unit_zero (S := S1x1) hz2, View.readCov_unit_zero (S := S1x1) _ hz2]

set_option maxHeartbeats 4000000 in
/-- The last point (second branch taken): after the step the accumulators are copied to the scalar outputs. -/
theorem run_last (c : Dev nD) (i : grid1.Coords) (arg1 : Memref sig .tc .vmem S3x80000 .f32) (harg1 : arg1.IsWhole) (arg2 : Memref sig .tc .vmem S3x80000 .i32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole)
    (hc0 : ¬cond1_0 i) (hc1 : cond1_1 i)
    (x0 : Vec F S3x80000 .f32) (x1 : Vec F S3x80000 .i32) (a b : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d4, owns (c : Thread nD τ) arg4 fullShare d4) ∗ (∃ d5, owns (c : Thread nD τ) arg5 fullShare d5) ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare (k1_pay4 x0 x1)
            ∗ owns (c : Thread nD τ) arg4 fullShare (stepMin x0 x1 a) ∗ owns (c : Thread nD τ) arg5 fullShare (stepCnt x0 x1 b) ∗ owns (c : Thread nD τ) arg6 fullShare (stepMin x0 x1 a) ∗ owns (c : Thread nD τ) arg7 fullShare (stepCnt x0 x1 b)) -∗ K ⟨⟩))
      ⊢ wp frame (wpE (defs₀ (F := F)) Variants.none c none) E (cc1__clause_reduce_kernel i arg1 harg1 arg2 harg2 arg3 harg3 arg4 harg4 arg5 harg5 arg6 harg6 arg7 harg7) K := by
  simp only [cc1__clause_reduce_kernel_eq_skeleton]; unfold cc1__clause_reduce_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H4]
  · iexists _; isplitr
    swap; · iexact H4
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H5]
  · iexists _; isplitr
    swap; · iexact H5
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H6]
  · iexists _; isplitr
    swap; · iexact H6
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  iexists _; isplitr
  swap; · iexact H7
  ipureintro
  (try sl_unfold_words)
  rw [read_writes_whole_last _ _ hz2]
  (try sl_unfold_words)
  simp only [View.readAt_eq_ld, harg1.read_unread, harg2.read_unread, harg6.read_unread, harg7.read_unread, View.ld_unit_zero (S := S3x80000) hz2, View.ld_unit_zero (S := S1x1) hz2, View.readCov_unit_zero (S := S1x1) _ hz2]

/-! ## The windows' blocks, at the contents the region is entered with -/

section AtEntry

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The literal-value window's staging buffer holds its block at every point, for any proof data over these arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the sign-word window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators point by point -/

/-- The two accumulators after the body at point `n` — (running minimum, running count): reset and stepped at the first
    point, stepped from the point before afterwards. -/
def acc (c : Dev nD) : (n : ℕ) → n < cfg1.N → Vec F S1x1 .f32 × Vec F S1x1 .f32
  | 0, hn => (stepMin (iblk1 V c 0 ⟨0, hn⟩) (iblk1 V c 1 ⟨0, hn⟩) k1_pay2, stepCnt (iblk1 V c 0 ⟨0, hn⟩) (iblk1 V c 1 ⟨0, hn⟩) k1_pay3)
  | n + 1, hn => (stepMin (iblk1 V c 0 ⟨n + 1, hn⟩) (iblk1 V c 1 ⟨n + 1, hn⟩) (acc c n (Nat.lt_of_succ_lt hn)).1,
      stepCnt (iblk1 V c 0 ⟨n + 1, hn⟩) (iblk1 V c 1 ⟨n + 1, hn⟩) (acc c n (Nat.lt_of_succ_lt hn)).2)

theorem acc_first (c : Dev nD) (t : Fin cfg1.N) (h : t.val = 0) :
    acc V c t.val t.isLt = (stepMin (iblk1 V c 0 t) (iblk1 V c 1 t) k1_pay2, stepCnt (iblk1 V c 0 t) (iblk1 V c 1 t) k1_pay3) := by
  obtain ⟨n, hn⟩ := t
  cases n with
  | zero => rfl
  | succ n => exact absurd h (Nat.succ_ne_zero n)

theorem acc_later (c : Dev nD) (t : Fin cfg1.N) (h : t.val ≠ 0) :
    acc V c t.val t.isLt = (stepMin (iblk1 V c 0 t) (iblk1 V c 1 t) (acc V c (t.val - 1) (Nat.lt_of_le_of_lt (Nat.sub_le _ _) t.isLt)).1,
      stepCnt (iblk1 V c 0 t) (iblk1 V c 1 t) (acc V c (t.val - 1) (Nat.lt_of_le_of_lt (Nat.sub_le _ _) t.isLt)).2) := by
  obtain ⟨n, hn⟩ := t
  cases n with
  | zero => exact absurd rfl h
  | succ n => rfl

/-! ## The invariant between points -/

/-- The two accumulators: whole scoped buffers of the kernel's own. -/
abbrev scM0 : Memref sig .tc .vmem S1x1 .f32 := Memref.whole cc1_scratch0
abbrev scM1 : Memref sig .tc .vmem S1x1 .f32 := Memref.whole cc1_scratch1

/-- The other kernel's two staging buffers, which this region carries along untouched. -/
def stgRest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f))

/-- What the region is handed besides its windows: those two buffers, the accumulators at anything, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

/-- The invariant before position `n`: before the first point what the region is handed; afterwards the accumulators
    at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ owns (c : Thread nD τ) scM0 fullShare (acc V c n hn).1 ∗ owns (c : Thread nD τ) scM1 fullShare (acc V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ owns (c : Thread nD τ) scM0 fullShare (acc V c n hn).1 ∗ owns (c : Thread nD τ) scM1 fullShare (acc V c n hn).2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ owns (c : Thread nD τ) scM0 fullShare (acc V c (n - 1) (by omega)).1 ∗ owns (c : Thread nD τ) scM1 fullShare (acc V c (n - 1) (by omega)).2) ∗ (∃ r, prngReg c r)) := by
  cases n with
  | zero => exact absurd rfl hz
  | succ n => rfl

/-! ## The proof data -/

/-- The region's proof data on core `c`: the arrays as found; after the body at point `t` each input's buffer at its block,
    the clause output's at the block's clause satisfactions, the two scalar outputs' at the accumulators; the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay4 (iblk1 V c 0 t) (iblk1 V c 1 t)
    | ⟨3, _⟩ => (acc V c t.val t.isLt).1
    | ⟨4, _⟩ => (acc V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay4 (iblk1 V c 0 t) (iblk1 V c 1 t) := by dsimp only [dat1]
theorem after1_3 (c : Dev nD) (t : Fin cfg1.N) : (dat1 V c).after 3 t = (acc V c t.val t.isLt).1 := by dsimp only [dat1]
theorem after1_4 (c : Dev nD) (t : Fin cfg1.N) : (dat1 V c).after 4 t = (acc V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the scalar outputs are idle and not written back; at it they are live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

end AtEntry

/-! ## The body obligation -/

section Obligation

variable (V : (c : Dev nD) → (b : Ref sig .tc) → Buf (Elt F) ((c : Thread nD τ).loc b))

/-- What the body is called with at point `t`: the invariant, the core owing nothing, each window's current staging buffer at what it then holds, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; the point is the first, the last or a middle one, and
    that case's triple applies; the invariant hands the accumulators over at what the point before left (at anything at
    the first point) and takes them back at this point's values. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 50 := lt_of_lt_of_eq t.isLt (show cfg1.N = 50 from N_1)
  by_cases h0 : t.val = 0
  · have h1 : ¬t.val = 49 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), Dat.leavesExact_idle (dat1 V c) 4 t (idleAt1_4 t hc1) (noFlush1_4 t hc1)]
    rw [acc_first V c t h0]; dsimp only
    rw [PhiS_castSucc V c t, PhiS_zero V c _ _ h0, PhiA1_eq]
    iintro ⟨⟨⟨Hs0, Hs1, HS0, HS1⟩, Hg⟩, Ho, ⟨%d0, H0⟩, ⟨%d1, H1⟩, ⟨%d2, H2⟩, ⟨%d3, H3⟩, ⟨%d4, H4⟩⟩
    iapply (run_first c (grid1.coords t) _ _ _ _ _ _ _ _ _ _ _ _ _ _ hc0 hc1 (iblk1 V c 0 t) (iblk1 V c 1 t) _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [Hs0 Hs1 HS0 HS1 Hg]
    · isplitr [Hg]
      · isplitl [Hs0]; · iexact Hs0
        isplitl [Hs1]; · iexact Hs1
        isplitl [HS0]; · iexact HS0
        iexact HS1
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val = 49
    · have hc0 : ¬cond1_0 (grid1.coords t) := fun h => h0 ((hcond1_0 t).mp h)
      have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [show (dat1 V c).leavesExact 4 t = owns (c : Thread nD τ) (st1_4 t) fullShare ((dat1 V c).after 4 t) from by
        unfold Dat.leavesExact; rw [liveAt1_4 t hc1], after1_4]
      rw [acc_later V c t h0]; dsimp only
      rw [PhiS_castSucc V c t, PhiS_pos V c _ _ h0]
      iintro ⟨⟨⟨Hs0, Hs1, HS0, HS1⟩, Hg⟩, Ho, ⟨%d0, H0⟩, ⟨%d1, H1⟩, ⟨%d2, H2⟩, ⟨%d3, H3⟩, ⟨%d4, H4⟩⟩
      iapply (run_last c (grid1.coords t) _ _ _ _ _ _ _ _ _ _ _ _ _ _ hc0 hc1 (iblk1 V c 0 t) (iblk1 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hs0 Hs1 HS0 HS1 Hg]
      · isplitr [Hg]
        · isplitl [Hs0]; · iexact Hs0
          isplitl [Hs1]; · iexact Hs1
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1), Dat.leavesExact_idle (dat1 V c) 4 t (idleAt1_4 t hc1) (noFlush1_4 t hc1)]
      rw [acc_later V c t h0]; dsimp only
      rw [PhiS_castSucc V c t, PhiS_pos V c _ _ h0]
      iintro ⟨⟨⟨Hs0, Hs1, HS0, HS1⟩, Hg⟩, Ho, ⟨%d0, H0⟩, ⟨%d1, H1⟩, ⟨%d2, H2⟩, ⟨%d3, H3⟩, ⟨%d4, H4⟩⟩
      iapply (run_mid c (grid1.coords t) _ _ _ _ _ _ _ _ _ _ _ _ _ _ hc0 hc1 (iblk1 V c 0 t) (iblk1 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [Hs0 Hs1 HS0 HS1 Hg]
      · isplitr [Hg]
        · isplitl [Hs0]; · iexact Hs0
          isplitl [Hs1]; · iexact Hs1
          isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the accumulators' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 50 := N_1; omega), PhiA1_eq]
  iintro ⟨⟨Hs0, Hs1, HS0, HS1⟩, Hg⟩
  isplitr [Hg]
  · isplitl [Hs0]; · iexact Hs0
    isplitl [Hs1]; · iexact Hs1
    isplitl [HS0]; · iexists _; iexact HS0
    iexists _; iexact HS1
  iexact Hg

end Obligation

end Cert.Kernel.Reg1

end
-- ==== Proof.KRun.lean ====
/-
  The whole program as the library's list of segments — the logistic kernel's region, the host operations that gather
  and stack the literal values and sign words, the clause kernel's region, the three final reshapes — and its run: from
  any memory with zero counters every weakly fair execution terminates, and the final memory holds every unscoped buffer
  at the contents computed here segment by segment (`Gen.V4`), the regions' output arrays at what their write-backs
  leave (`outs`). The frame claim and the value claim are both read off this run.
-/
import proofs.«427304_j81003083202771_3_alg».proof.Proof.Gen.Kernel.Regions
import proofs.«427304_j81003083202771_3_alg».proof.Proof.KReg0
import proofs.«427304_j81003083202771_3_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- The first region is entered at the launch contents. -/
abbrev E0 : (c : Dev nD) → (b : Ref sig .tc) → Buf (Elt F) ((c : Thread nD τ).loc b) := fun c b => V0 m c b

/-- What the first region leaves in the assignments array. -/
def o1 (c : Dev nD) : Buf (Elt F) ((c : Thread nD τ).loc main_v0) := (Reg0.dat0 (E0 m) c).arrAt 1 cfg0.N

/-- The contents after the first region and the host operations between the regions: the second region's entry. -/
abbrev W2 (c : Dev nD) : Valuation τ sig (Elt F) := StableHlo.after hostOps1 (Function.update (V0 m c) main_v0 (o1 m c))
abbrev E1 : (c : Dev nD) → (b : Ref sig .tc) → Buf (Elt F) ((c : Thread nD τ).loc b) := fun c b => W2 m c b

/-- What the regions leave in the buffers they may change. -/
def outs : Outs (F := F) := fun _ r c =>
  if h : r = main_v0 then h ▸ o1 m c
  else if h : r = main_v42_0 then h ▸ (Reg1.dat1 (E1 m) c).arrAt 2 cfg1.N
  else if h : r = main_v42_1 then h ▸ (Reg1.dat1 (E1 m) c).arrAt 3 cfg1.N
  else if h : r = main_v42_2 then h ▸ (Reg1.dat1 (E1 m) c).arrAt 4 cfg1.N
  else m ((c : Thread nD τ).loc r)

theorem outs_v0 (J : ℕ) (c : Dev nD) : outs m J main_v0 c = o1 m c := by
  unfold outs; rw [dif_pos rfl]
theorem outs_v42_0 (J : ℕ) (c : Dev nD) : outs m J main_v42_0 c = (Reg1.dat1 (E1 m) c).arrAt 2 cfg1.N := by
  unfold outs; rw [dif_neg (by decide), dif_pos rfl]
theorem outs_v42_1 (J : ℕ) (c : Dev nD) : outs m J main_v42_1 c = (Reg1.dat1 (E1 m) c).arrAt 3 cfg1.N := by
  unfold outs; rw [dif_neg (by decide), dif_neg (by decide), dif_pos rfl]
theorem outs_v42_2 (J : ℕ) (c : Dev nD) : outs m J main_v42_2 c = (Reg1.dat1 (E1 m) c).arrAt 4 cfg1.N := by
  unfold outs; rw [dif_neg (by decide), dif_neg (by decide), dif_neg (by decide), dif_pos rfl]

/-- The second region's entry contents are the generated valuation after the host stretch. -/
theorem V2_eq (c : Dev nD) : V2 m (outs m) c = W2 m c := by
  show StableHlo.after hostOps1 (Function.update (V0 m c) main_v0 (outs m 1 main_v0 c)) = _
  rw [outs_v0]

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => Reg0.dat0 (E0 m) c
  | ⟨1, _⟩ => fun c => Reg1.dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## The regions' arrays at their exits -/

theorem pdats_zero (c : Dev nD) : pdats m 0 c = Reg0.dat0 (E0 m) c := rfl
theorem pdats_one (c : Dev nD) : pdats m 1 c = Reg1.dat1 (E1 m) c := rfl

/-- At the first region's exit each of its arrays holds what the pipeline leaves … -/
theorem hF0 (c : Dev nD) : ∀ w : Fin cfg0.W, (pdats m 0 c).arrAt w cfg0.N = (fun b : Ref sig .tc => V1 m (outs m) c b) (Pipeline.arrRef spec0 w)
  | ⟨0, _⟩ => (Reg0.final0_in (E0 m) c).trans (V1_of m (outs m) c main_arg0 (by decide)).symm
  | ⟨1, _⟩ => by
    show (Reg0.dat0 (E0 m) c).arrAt 1 cfg0.N = Function.update (V0 m c) (Proc.devRef .tc main_v0) (outs m 1 main_v0 c) (Proc.devRef .tc main_v0)
    rw [Function.update_self, outs_v0]; rfl
/-- … and every other buffer what it held at entry. -/
theorem hrest0 (c : Dev nD) : ∀ b : Ref sig .tc, b ∉ Finset.univ.image (Pipeline.arrRef spec0) → (fun b : Ref sig .tc => V1 m (outs m) c b) b = E0 m c b :=
  fun b hb => V1_of m (outs m) c b fun h => hb (Finset.mem_image.mpr ⟨1, Finset.mem_univ _, (List.mem_singleton.mp h).symm⟩)

/-- The same for the second region. -/
theorem hF1 (c : Dev nD) : ∀ w : Fin cfg1.W, (pdats m 1 c).arrAt w cfg1.N = (fun b : Ref sig .tc => V3 m (outs m) c b) (Pipeline.arrRef spec1 w)
  | ⟨0, _⟩ => (((Reg1.dat1 (E1 m) c).arrAt_in 0 rfl cfg1.N).trans (Reg1.A_eq1 (E1 m) c 0)).trans
      (((V3_of m (outs m) c main_v37 (by decide)).trans (congrFun (V2_eq m c) _)).symm)
  | ⟨1, _⟩ => (((Reg1.dat1 (E1 m) c).arrAt_in 1 rfl cfg1.N).trans (Reg1.A_eq1 (E1 m) c 1)).trans
      (((V3_of m (outs m) c main_v41 (by decide)).trans (congrFun (V2_eq m c) _)).symm)
  | ⟨2, _⟩ => by
    show (Reg1.dat1 (E1 m) c).arrAt 2 cfg1.N = Function.update (Function.update (Function.update (V2 m (outs m) c) (Proc.devRef .tc main_v42_0) (outs m 3 main_v42_0 c)) (Proc.devRef .tc main_v42_1) (outs m 3 main_v42_1 c)) (Proc.devRef .tc main_v42_2) (outs m 3 main_v42_2 c) (Proc.devRef .tc main_v42_0)
    rw [Function.update_of_ne (StableHlo.devRef_ne_of_ne (by decide)), Function.update_of_ne (StableHlo.devRef_ne_of_ne (by decide)), Function.update_self, outs_v42_0]
  | ⟨3, _⟩ => by
    show (Reg1.dat1 (E1 m) c).arrAt 3 cfg1.N = Function.update (Function.update (Function.update (V2 m (outs m) c) (Proc.devRef .tc main_v42_0) (outs m 3 main_v42_0 c)) (Proc.devRef .tc main_v42_1) (outs m 3 main_v42_1 c)) (Proc.devRef .tc main_v42_2) (outs m 3 main_v42_2 c) (Proc.devRef .tc main_v42_1)
    rw [Function.update_of_ne (StableHlo.devRef_ne_of_ne (by decide)), Function.update_self, outs_v42_1]
  | ⟨4, _⟩ => by
    show (Reg1.dat1 (E1 m) c).arrAt 4 cfg1.N = Function.update (Function.update (Function.update (V2 m (outs m) c) (Proc.devRef .tc main_v42_0) (outs m 3 main_v42_0 c)) (Proc.devRef .tc main_v42_1) (outs m 3 main_v42_1 c)) (Proc.devRef .tc main_v42_2) (outs m 3 main_v42_2 c) (Proc.devRef .tc main_v42_2)
    rw [Function.update_self, outs_v42_2]
theorem hrest1 (c : Dev nD) : ∀ b : Ref sig .tc, b ∉ Finset.univ.image (Pipeline.arrRef spec1) → (fun b : Ref sig .tc => V3 m (outs m) c b) b = E1 m c b :=
  fun b hb => (V3_of m (outs m) c b fun h => hb (by
    rcases List.mem_cons.mp h with rfl | h
    · exact Finset.mem_image.mpr ⟨2, Finset.mem_univ _, rfl⟩
    rcases List.mem_cons.mp h with rfl | h
    · exact Finset.mem_image.mpr ⟨3, Finset.mem_univ _, rfl⟩
    · exact Finset.mem_image.mpr ⟨4, Finset.mem_univ _, (List.mem_singleton.mp h).symm⟩)).trans (congrFun (V2_eq m c) _)

/-! ## The regions as segments -/

-- a library lemma stated over the pinned configuration unifies with the printed one only when unification may unfold
-- plain definitions in a metavariable's type
set_option backward.isDefEq.respectTransparency.types false in
/-- The logistic kernel's region: entered with every unscoped buffer at the launch contents, left with the assignments
    array at what its one write-back leaves; the generator register passes through the region's invariant; nothing owed;
    the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After its last point the clause kernel's invariant gives back the generator register and the scoped rest. -/
theorem hout_1 (c : Dev nD) : ((Reg1.dat1 (E1 m) c).Φ (Fin.last cfg1.N) : sProp 𝕄)
    ⊢ iprop((∃ r, prngReg c r) ∗ BI.emp ∗ Pipeline.scopedRest (Ix := Unit) (Name := ℕ) (U := UR sig nD τ) (Lvl := ℕ) (Val := Elt F) spec1 c) := by
  have h := Reg1.hout1 (E1 m) c
  unfold Pipeline.ΦA at h
  iintro H
  ihave H' := h $$ H
  icases H' with ⟨Hr, Hp⟩
  isplitl [Hp]; · iexact Hp
  isplitr; · iempintro
  iexact Hr

set_option backward.isDefEq.respectTransparency.types false in
/-- The clause kernel's region: entered with every unscoped buffer at the contents after the host stretch, left with its
    three output arrays at what their write-backs leave; its invariant starts and ends at what the region is handed. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (E1 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [V2_eq m c]
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout_1 m c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b : Ref sig .tc => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What the launch deals a core besides its buffers makes what rides along. -/
theorem rest_of_launch (ρ : Dev nD → PrngReg) (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (R c : sProp 𝕄) := by
  iintro ⟨-, HO, -, Hp, -⟩
  isplitl [Hp]; · iexists _; iexact Hp
  iexists ∅; iexact HO

/-- The launch's ghost element is the pipeline library's, with nothing for the cores besides. -/
theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core's share of the launch makes what rides along, on all cores at once. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R c) : sProp 𝕄) := bigSep_mono fun c _ => rest_of_launch ρ c
  iintro ⟨H, -⟩
  imodintro
  iapply hm
  iexact H

-- the conditional frame's implicit arguments are found by unifying its conclusion with this one
set_option backward.isDefEq.respectTransparency.types false in
/-- THE FRAME: from any memory with zero counters every weakly fair execution of the program terminates, nothing faulting,
    and the three argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp)) (u₀ := (initOf (Pipeline.cells cfgs cellOf_inj) (Pipeline.launchToks cfgs cellOf_inj))) (hu₀ := launch_ghost)
    (E := fun _ c => R c) (hE0 := launch_rest ρ) (hE2 := fun c => by iintro ⟨-, H⟩; iexact H)
    (R0 := reg0 m) (hpre0 := fun c => .rfl) (hpost0 := fun c => .rfl)
    (R1 := reg1 m) (hpre1 := fun c => .rfl) (hpost1 := fun c => .rfl)

end Cert.Kernel.Run

end
-- ==== Proof.KIReg0.lean ====
/- The logistic kernel's region (custom_call 0): one grid point whose input block is the whole input array and whose
   output block is the whole output array. At a parameter `V` (the TensorCore's buffer contents when the region is
   entered): the windows' blocks, what the body's one store leaves in the output's buffer, the body's triple, the
   pipeline's proof data, the body obligation, and the two arrays' contents when the region is left — the input array
   as found, the output array at the logistic of the whole input array. -/
import proofs.«427304_j81003083202771_3_alg».proof.Proof.Gen.KernelIdeal.Launch
import proofs.«427304_j81003083202771_3_alg».proof.Proof.Gen.KernelIdeal.Skeleton
import proofs.«427304_j81003083202771_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Reg0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block when the body runs, for any proof data over `V`'s input array
    whose body leaves that block where it found it: the window is an input, never idle, uncut. -/
theorem input_found {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-! ## What the body leaves in the output's buffer -/

/-- The rectangle of the body's load and of its store: all of a staging buffer, at offset zero. -/
abbrev allOf : Rect S1000000 := Rect.unit (s := S1000000) ![0] S1000000.size inb_S1000000_S1000000_0

/-- The offset, however spelt, is zero on the one axis. -/
theorem off_zero : (![0] : Fin S1000000.rank → Nat) = fun _ => 0 := funext fun a => by
  have : a = 0 := Subsingleton.elim _ _
  subst this; rfl

/-- The output's staging buffer after the body, from the input's block `x`: its one store, of the logistic of what
    the load read of `x`. -/
def stored (x : Vec F S1000000 .f32) : Vec F S1000000 .f32 :=
  View.canon [⟨allOf, k0_pay1 (View.ld x allOf)⟩]

/-- The one store covers the buffer: every index lies in the whole-buffer rectangle. -/
theorem stored_covers (p : Vec F S1000000 .f32) (y : S1000000.Idx) :
    ∃ pc ∈ ([⟨allOf, p⟩] : List (View.Piece (Elt F) S1000000 .f32)), y ∈ pc.1.set :=
  ⟨_, List.mem_singleton_self _, View.mem_set_unit_zero off_zero inb_S1000000_S1000000_0 y⟩

/-- In closed form: the logistic of the block, entry by entry. -/
theorem stored_eq (x : Vec F S1000000 .f32) : stored x = k0_pay1 x := by
  unfold stored
  rw [View.canon_unit_zero off_zero, View.ld_unit_zero off_zero]

/-! ## The body's triple -/

set_option maxHeartbeats 1000000 in
/-- The body on whole staging memrefs — the input's at read contents `x`, the output's at anything — runs to the
    continuation holding the input's as it was and the output's at `stored x`: it loads the input's buffer, loads
    the output's (a value it never uses), and stores the logistic of the first load over all of the output's. -/
theorem body_triple (c : Dev nD) (E : Set ℕ) (i : grid0.Coords)
    (src : Memref sig .tc .vmem S1000000 .f32) (hsrc : src.IsWhole) (dst : Memref sig .tc .vmem S1000000 .f32) (hdst : dst.IsWhole)
    (x : Vec F S1000000 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (stored x)) -∗ K ⟨⟩))
      ⊢ wp frame (wpE (defs₀ (F := F)) Variants.none c none) E (cc0__sigmoid_kernel i src hsrc dst hdst) K := by
  simp only [cc0__sigmoid_kernel_eq_skeleton]; unfold cc0__sigmoid_kernel_skel
  unfold owns
  iintro ⟨⟨%f0, %hf0, H0⟩, ⟨%d1, %f1, -, H1⟩, Hk⟩
  subst hf0
  sl_exec
  sl_step
  iapply Hk
  isplitl [H0]
  · iexists f0; isplitr
    · ipureintro; rfl
    · iexact H0
  · iexists _; isplitr
    swap
    · iexact H1
    · ipureintro
      exact View.read_writes_eq_canon _ _ _ (stored_covers _)

/-! ## The pipeline's proof data -/

/-- The proof data of the region on core `c`: the arrays as the region finds them; after the body the input's buffer
    at the input's block and the output's at what the one store leaves of it; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => stored (iblk0 V c 0 t)
  Φ _ := Pipeline.ΦA spec0 c
  q _ := fullShare
  owed _ := 0

/-- The proof data's arrays are the contents the region is entered at. -/
theorem A_eq0 (c : Dev nD) (w : Fin cfg0.W) : (dat0 V c).A w = V c (Pipeline.arrRef spec0 w) := by
  dsimp only [dat0]

/-- What the body leaves, window by window. -/
theorem after_input (c : Dev nD) (t : Fin cfg0.N) : (dat0 V c).after 0 t = iblk0 V c 0 t := by dsimp only [dat0]
theorem after_output (c : Dev nD) (t : Fin cfg0.N) : (dat0 V c).after 1 t = stored (iblk0 V c 0 t) := by dsimp only [dat0]

/-- The input's buffer holds the input's block when the body runs. -/
theorem before_input (c : Dev nD) (t : Fin cfg0.N) (d) : (dat0 V c).before 0 t d = iblk0 V c 0 t :=
  input_found V (dat0 V c) (A_eq0 V c 0) (after_input V c) t d

/-! ## The body obligation -/

/-- What the body is called with at point `t`, the two windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at a point: the input's memref holds its block, so the body's triple applies; the invariant and what
    the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_input]
  rw [show (dat0 V c).Φ t.succ = (dat0 V c).Φ t.castSucc from rfl,
    show (dat0 V c).owesAt () t.succ = (dat0 V c).owesAt () t.castSucc from rfl,
    after_input, after_output]
  iintro ⟨HΦ, Ho, ⟨%d0, Hin⟩, ⟨%d1, Hout⟩⟩
  iapply (body_triple c Set.univ _ _ _ _ _ (iblk0 V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  iexact Hout

/-- The library's body obligation, at every point. -/
theorem body_obligation0 (c : Dev nD) : BodyObligation (dat0 (F := F) V c) (defs₀ (F := F)) Variants.none () Set.univ := fun t => by
  rw [bigSep_W0, bigSep_W0]
  exact body_at V c t

/-! ## The arrays when the region is left -/

/-- The input array is never written back: it ends as the region found it. -/
theorem final0_in (c : Dev nD) : (dat0 V c).arrAt 0 cfg0.N = V c (Pipeline.arrRef spec0 0) :=
  ((dat0 V c).arrAt_in 0 rfl cfg0.N).trans (A_eq0 V c 0)

/-- Both windows' blocks start at element zero of their arrays at every point: the index maps are constantly zero. -/
theorem input_offset_zero (t : Fin cfg0.N) : (fun a => win0_0.index t a * main_arg0.ty.shape.size a) = fun _ => 0 :=
  funext fun a => by
    have h : win0_0.index t a = 0 := match a with | ⟨0, _⟩ => rfl
    show win0_0.index t a * _ = 0
    rw [h, Nat.zero_mul]
theorem output_offset_zero (t : Fin cfg0.N) : (fun a => win0_1.index t a * main_v0.ty.shape.size a) = fun _ => 0 :=
  funext fun a => by
    have h : win0_1.index t a = 0 := match a with | ⟨0, _⟩ => rfl
    show win0_1.index t a * _ = 0
    rw [h, Nat.zero_mul]

/-- The input's block at any point is the whole input array. -/
theorem input_block_eq (c : Dev nD) (t : Fin cfg0.N) : iblk0 V c 0 t = V c main_arg0 := by
  unfold iblk0
  exact Memref.read_access_unit_zero (Elt F) main_arg0 (input_offset_zero t) (fun a => by rw [congrFun (input_offset_zero t) a]; simp) (V c main_arg0)

/-- The whole output array's contents when the region is left: the logistic of the whole input array. -/
abbrev logisticOfInput (c : Dev nD) : Buf (Elt F) ((c : Thread nD τ).loc main_v0) :=
  (k0_pay1 (V c main_arg0) : FVec F S1000000 .f32)

/-- What the one write-back writes is the block of that array at its point: the block is the whole array. -/
theorem flushed_output (c : Dev nD) (t : Fin cfg0.N) :
    (dat0 V c).flushed 1 t = ((cfg0.win 1).blk t).view.read (Elt F) (logisticOfInput V c) := by
  show (cfg0.win 1).cut (grid0.coords t) ((dat0 V c).after 1 t) = _
  rw [after_output, stored_eq, input_block_eq]
  exact (Memref.read_access_unit_zero (Elt F) main_v0 (output_offset_zero t) (fun a => by rw [congrFun (output_offset_zero t) a]; simp) (logisticOfInput V c)).symm

/-- The output array ends at the logistic of the whole input array: the one point writes its block back, and that
    block is the whole array. -/
theorem final0_out (c : Dev nD) : (dat0 V c).arrAt 1 cfg0.N = logisticOfInput V c :=
  (dat0 V c).arrAt_eq_of_cover 1 (logisticOfInput V c) (fun t _ => flushed_output V c t) fun i =>
    ⟨t0_0, flush0_1 t0_0, by
      show i ∈ ((View.whole main_v0).slice (win0_1.rect t0_0)).set
      rw [View.set_slice_whole]
      exact View.mem_set_unit_zero (output_offset_zero t0_0) _ i⟩

/-- The same, entry by entry. -/
theorem final0_out_apply (c : Dev nD) (i : S1000000.Idx) :
    ((dat0 V c).arrAt 1 cfg0.N : S1000000.Idx → Elt F .f32) i = FloatOps.logistic ((V c main_arg0 : S1000000.Idx → Elt F .f32) i) := by
  rw [final0_out]; rfl

end Cert.KernelIdeal.Reg0

end
-- ==== Proof.KIReg1.lean ====
/-
  The second kernel's region: per clause block, the clause satisfactions (the largest of three literal values), a running
  minimum and a running count of satisfactions above one half, carried in two one-element accumulators from grid point to
  grid point and copied to the two scalar outputs at the last point. Here: the body's triple in its three cases (first
  point, a middle point, last point), what the accumulators hold after each point, the region's proof data and the body
  obligation at every point. Stated for any float instance and at any contents `V` of the buffers at the region's entry.
-/
import proofs.«427304_j81003083202771_3_alg».proof.Proof.Gen.KernelIdeal.Launch
import proofs.«427304_j81003083202771_3_alg».proof.Proof.Gen.KernelIdeal.Skeleton
import proofs.«427304_j81003083202771_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branches

The second kernel's body resets its two one-element accumulators (running minimum, running count) when the grid
coordinate is 0, and copies them to its two scalar outputs when the coordinate is 49. -/

/-- The first branch is taken: the grid coordinate is 0. -/
abbrev cond1_0 (i : grid1.Coords) : Prop := (Scalar.cmpi .ne (Scalar.extui (Scalar.cmpi .eq (BitVec.ofNat 32 (i 0).val) 0#32)) 0#32) = 1#1
/-- The second branch is taken: the grid coordinate is 49. -/
abbrev cond1_1 (i : grid1.Coords) : Prop := k1_cond2 i = 1#1

/-- The first branch is taken at the first point only. -/
theorem hcond1_0 : ∀ t : Fin cfg1.N, cond1_0 (grid1.coords t) ↔ t.val = 0 :=
  (by decide +kernel : ∀ t : Fin grid1.N, cond1_0 (grid1.coords t) ↔ t.val = 0)
/-- The second branch is taken at the last point only. -/
theorem hcond1_1 : ∀ t : Fin cfg1.N, cond1_1 (grid1.coords t) ↔ t.val = 49 :=
  (by decide +kernel : ∀ t : Fin grid1.N, cond1_1 (grid1.coords t) ↔ t.val = 49)

/-- The origin of a rank-2 rectangle. -/
theorem hz2 : (![0, 0] : Fin 2 → Nat) = fun _ => 0 := by funext a; fin_cases a <;> rfl

/-- A store of a whole buffer, made last, leaves its payload whatever was stored before. -/
theorem read_writes_whole_last {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩)]
  exact View.canon_cons_unit_zero rfl _ w L

/-! ## What one pass of the body leaves in the accumulators -/

/-- The running minimum after a pass over the blocks `x0` (literal values) and `x1` (sign words), from `a`. -/
abbrev stepMin (x0 : Vec F S3x80000 .f32) (x1 : Vec F S3x80000 .i32) (a : Vec F S1x1 .f32) : Vec F S1x1 .f32 := k1_pay5 x0 x1 a
/-- The running count after a pass, from `b`. -/
abbrev stepCnt (x0 : Vec F S3x80000 .f32) (x1 : Vec F S3x80000 .i32) (b : Vec F S1x1 .f32) : Vec F S1x1 .f32 := k1_pay1 (k1_pay6 x0 x1 b)

/-! ## The body's triple, case by case -/

set_option maxHeartbeats 4000000 in
/-- A middle point (neither branch taken): the clause block is stored, both accumulators step, the scalar outputs'
    buffers are left as found. -/
theorem run_mid (c : Dev nD) (i : grid1.Coords) (arg1 : Memref sig .tc .vmem S3x80000 .f32) (harg1 : arg1.IsWhole) (arg2 : Memref sig .tc .vmem S3x80000 .i32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole)
    (hc0 : ¬cond1_0 i) (hc1 : ¬cond1_1 i)
    (x0 : Vec F S3x80000 .f32) (x1 : Vec F S3x80000 .i32) (a b d4 d5 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare d4 ∗ owns (c : Thread nD τ) arg5 fullShare d5 ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare (k1_pay4 x0 x1)
            ∗ owns (c : Thread nD τ) arg4 fullShare d4 ∗ owns (c : Thread nD τ) arg5 fullShare d5 ∗ owns (c : Thread nD τ) arg6 fullShare (stepMin x0 x1 a) ∗ owns (c : Thread nD τ) arg7 fullShare (stepCnt x0 x1 b)) -∗ K ⟨⟩))
      ⊢ wp frame (wpE (defs₀ (F := F)) Variants.none c none) E (cc1__clause_reduce_kernel i arg1 harg1 arg2 harg2 arg3 harg3 arg4 harg4 arg5 harg5 arg6 harg6 arg7 harg7) K := by
  simp only [cc1__clause_reduce_kernel_eq_skeleton]; unfold cc1__clause_reduce_kernel_skel
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  iexists _; isplitr
  swap; · iexact H7
  ipureintro
  (try sl_unfold_words)
  rw [read_writes_whole_last _ _ hz2]
  (try sl_unfold_words)
  simp only [View.readAt_eq_ld, harg1.read_unread, harg2.read_unread, harg6.read_unread, harg7.read_unread, View.ld_unit_zero (S := S3x80000) hz2, View.ld_unit_zero (S := S1x1) hz2, View.readCov_unit_zero (S := S1x1) _ hz2]

set_option maxHeartbeats 4000000 in
/-- The first point (first branch taken): the accumulators are reset to +∞ and 0, then step. -/
theorem run_first (c : Dev nD) (i : grid1.Coords) (arg1 : Memref sig .tc .vmem S3x80000 .f32) (harg1 : arg1.IsWhole) (arg2 : Memref sig .tc .vmem S3x80000 .i32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole)
    (hc0 : cond1_0 i) (hc1 : ¬cond1_1 i)
    (x0 : Vec F S3x80000 .f32) (x1 : Vec F S3x80000 .i32) (d4 d5 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare d4 ∗ owns (c : Thread nD τ) arg5 fullShare d5 ∗ (∃ a, owns (c : Thread nD τ) arg6 fullShare a) ∗ (∃ b, owns (c : Thread nD τ) arg7 fullShare b)
        ∗ (iprop(owns (c : Thread nD τ) arg1 fullShare x0 ∗ owns (c : Thread nD τ) arg2 fullShare x1 ∗ owns (c : Thread nD τ) arg3 fullShare (k1_pay4 x0 x1)
            ∗ owns (c : Thread nD τ) arg4 fullShare d4 ∗ owns (c : Thread nD τ) arg5 fullShare d5 ∗ owns (c : Thread nD τ) arg6 fullShare (stepMin x0 x1 k1_pay2) ∗ owns (c : Thread nD τ) arg7 fullShare (stepCnt x0 x1 k1_pay3)) -∗ K ⟨⟩))
      ⊢ wp frame (wpE (defs₀ (F := F)) Variants.none c none) E (cc1__clause_reduce_kernel i arg1 harg1 arg2 harg2 arg3 harg3 arg4 harg4 arg5 harg5 arg6 harg6 arg7 harg7) K := by
  simp only [cc1__clause_reduce_kernel_eq_skeleton]; unfold cc1__clause_reduce_kernel_skel
  unfold owns
  iintro ⟨⟨%f1, %hf1, H1⟩, ⟨%f2, %hf2, H2⟩, ⟨%d3, %f3, -, H3⟩, ⟨%f4, %hf4, H4⟩, ⟨%f5, %hf5, H5⟩, ⟨%a, %f6, -, H6⟩, ⟨%b, %f7, -, H7⟩, Hk⟩
  obtain rfl := harg1.eq_unread hf1; obtain rfl := harg2.eq_unread hf2; obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  iexists _; isplitr
  swap; · iexact H7
  ipureintro
  (try sl_unfold_words)
  rw [read_writes_whole_last _ _ hz2]
  (try sl_unfold_words)
  simp only [View.readAt_eq_ld, harg1.read_unread, harg2.read_unread, harg6.read_unread, harg7.read_unread, View.ld_unit_zero (S := S3x80000) hz2, View.ld_unit_zero (S := S1x1) hz2, View.readCov_unit_zero (S := S1x1) _ hz2]

set_option maxHeartbeats 4000000 in
/-- The last point (second branch taken): after the step the accumulators are copied to the scalar outputs. -/
theorem run_last (c : Dev nD) (i : grid1.Coords) (arg1 : Memref sig .tc .vmem S3x80000 .f32) (harg1 : arg1.IsWhole) (arg2 : Memref sig .tc .vmem S3x80000 .i32) (harg2 : arg2.IsWhole) (arg3 : Memref sig .tc .vmem S1x80000 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole)
    (hc0 : ¬cond1_0 i) (hc1 : cond1_1 i)
    (x0 : Vec F S3x80000 .f32) (x1 : Vec F S3x80000 .i32) (a b : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d4, owns (c : Thread nD τ) arg4 fullShare d4) ∗ (∃ d5, owns (c : Thread nD τ) arg5 fullShare d5) ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare (k1_pay4 x0 x1)
            ∗ owns (c : Thread nD τ) arg4 fullShare (stepMin x0 x1 a) ∗ owns (c : Thread nD τ) arg5 fullShare (stepCnt x0 x1 b) ∗ owns (c : Thread nD τ) arg6 fullShare (stepMin x0 x1 a) ∗ owns (c : Thread nD τ) arg7 fullShare (stepCnt x0 x1 b)) -∗ K ⟨⟩))
      ⊢ wp frame (wpE (defs₀ (F := F)) Variants.none c none) E (cc1__clause_reduce_kernel i arg1 harg1 arg2 harg2 arg3 harg3 arg4 harg4 arg5 harg5 arg6 harg6 arg7 harg7) K := by
  simp only [cc1__clause_reduce_kernel_eq_skeleton]; unfold cc1__clause_reduce_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H4]
  · iexists _; isplitr
    swap; · iexact H4
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H5]
  · iexists _; isplitr
    swap; · iexact H5
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  isplitl [H6]
  · iexists _; isplitr
    swap; · iexact H6
    ipureintro
    (try sl_unfold_words)
    rw [read_writes_whole_last _ _ hz2]
    (try sl_unfold_words)
    simp only [View.readAt_eq_ld, harg1.read_unread, harg2.read_unread, harg6.read_unread, harg7.read_unread, View.ld_unit_zero (S := S3x80000) hz2, View.ld_unit_zero (S := S1x1) hz2, View.readCov_unit_zero (S := S1x1) _ hz2]
  iexists _; isplitr
  swap; · iexact H7
  ipureintro
  (try sl_unfold_words)
  rw [read_writes_whole_last _ _ hz2]
  (try sl_unfold_words)
  simp only [View.readAt_eq_ld, harg1.read_unread, harg2.read_unread, harg6.read_unread, harg7.read_unread, View.ld_unit_zero (S := S3x80000) hz2, View.ld_unit_zero (S := S1x1) hz2, View.readCov_unit_zero (S := S1x1) _ hz2]

/-! ## The windows' blocks, at the contents the region is entered with -/

section AtEntry

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The literal-value window's staging buffer holds its block at every point, for any proof data over these arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the sign-word window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators point by point -/

/-- The two accumulators after the body at point `n` — (running minimum, running count): reset and stepped at the first
    point, stepped from the point before afterwards. -/
def acc (c : Dev nD) : (n : ℕ) → n < cfg1.N → Vec F S1x1 .f32 × Vec F S1x1 .f32
  | 0, hn => (stepMin (iblk1 V c 0 ⟨0, hn⟩) (iblk1 V c 1 ⟨0, hn⟩) k1_pay2, stepCnt (iblk1 V c 0 ⟨0, hn⟩) (iblk1 V c 1 ⟨0, hn⟩) k1_pay3)
  | n + 1, hn => (stepMin (iblk1 V c 0 ⟨n + 1, hn⟩) (iblk1 V c 1 ⟨n + 1, hn⟩) (acc c n (Nat.lt_of_succ_lt hn)).1,
      stepCnt (iblk1 V c 0 ⟨n + 1, hn⟩) (iblk1 V c 1 ⟨n + 1, hn⟩) (acc c n (Nat.lt_of_succ_lt hn)).2)

theorem acc_first (c : Dev nD) (t : Fin cfg1.N) (h : t.val = 0) :
    acc V c t.val t.isLt = (stepMin (iblk1 V c 0 t) (iblk1 V c 1 t) k1_pay2, stepCnt (iblk1 V c 0 t) (iblk1 V c 1 t) k1_pay3) := by
  obtain ⟨n, hn⟩ := t
  cases n with
  | zero => rfl
  | succ n => exact absurd h (Nat.succ_ne_zero n)

theorem acc_later (c : Dev nD) (t : Fin cfg1.N) (h : t.val ≠ 0) :
    acc V c t.val t.isLt = (stepMin (iblk1 V c 0 t) (iblk1 V c 1 t) (acc V c (t.val - 1) (Nat.lt_of_le_of_lt (Nat.sub_le _ _) t.isLt)).1,
      stepCnt (iblk1 V c 0 t) (iblk1 V c 1 t) (acc V c (t.val - 1) (Nat.lt_of_le_of_lt (Nat.sub_le _ _) t.isLt)).2) := by
  obtain ⟨n, hn⟩ := t
  cases n with
  | zero => exact absurd rfl h
  | succ n => rfl

/-! ## The invariant between points -/

/-- The two accumulators: whole scoped buffers of the kernel's own. -/
abbrev scM0 : Memref sig .tc .vmem S1x1 .f32 := Memref.whole cc1_scratch0
abbrev scM1 : Memref sig .tc .vmem S1x1 .f32 := Memref.whole cc1_scratch1

/-- The other kernel's two staging buffers, which this region carries along untouched. -/
def stgRest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f))

/-- What the region is handed besides its windows: those two buffers, the accumulators at anything, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

/-- The invariant before position `n`: before the first point what the region is handed; afterwards the accumulators
    at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ owns (c : Thread nD τ) scM0 fullShare (acc V c n hn).1 ∗ owns (c : Thread nD τ) scM1 fullShare (acc V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ owns (c : Thread nD τ) scM0 fullShare (acc V c n hn).1 ∗ owns (c : Thread nD τ) scM1 fullShare (acc V c n hn).2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ owns (c : Thread nD τ) scM0 fullShare (acc V c (n - 1) (by omega)).1 ∗ owns (c : Thread nD τ) scM1 fullShare (acc V c (n - 1) (by omega)).2) ∗ (∃ r, prngReg c r)) := by
  cases n with
  | zero => exact absurd rfl hz
  | succ n => rfl

/-! ## The proof data -/

/-- The region's proof data on core `c`: the arrays as found; after the body at point `t` each input's buffer at its block,
    the clause output's at the block's clause satisfactions, the two scalar outputs' at the accumulators; the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay4 (iblk1 V c 0 t) (iblk1 V c 1 t)
    | ⟨3, _⟩ => (acc V c t.val t.isLt).1
    | ⟨4, _⟩ => (acc V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay4 (iblk1 V c 0 t) (iblk1 V c 1 t) := by dsimp only [dat1]
theorem after1_3 (c : Dev nD) (t : Fin cfg1.N) : (dat1 V c).after 3 t = (acc V c t.val t.isLt).1 := by dsimp only [dat1]
theorem after1_4 (c : Dev nD) (t : Fin cfg1.N) : (dat1 V c).after 4 t = (acc V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the scalar outputs are idle and not written back; at it they are live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

end AtEntry

/-! ## The body obligation -/

section Obligation

variable (V : (c : Dev nD) → (b : Ref sig .tc) → Buf (Elt F) ((c : Thread nD τ).loc b))

/-- What the body is called with at point `t`: the invariant, the core owing nothing, each window's current staging buffer at what it then holds, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; the point is the first, the last or a middle one, and
    that case's triple applies; the invariant hands the accumulators over at what the point before left (at anything at
    the first point) and takes them back at this point's values. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 50 := lt_of_lt_of_eq t.isLt (show cfg1.N = 50 from N_1)
  by_cases h0 : t.val = 0
  · have h1 : ¬t.val = 49 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), Dat.leavesExact_idle (dat1 V c) 4 t (idleAt1_4 t hc1) (noFlush1_4 t hc1)]
    rw [acc_first V c t h0]; dsimp only
    rw [PhiS_castSucc V c t, PhiS_zero V c _ _ h0, PhiA1_eq]
    iintro ⟨⟨⟨Hs0, Hs1, HS0, HS1⟩, Hg⟩, Ho, ⟨%d0, H0⟩, ⟨%d1, H1⟩, ⟨%d2, H2⟩, ⟨%d3, H3⟩, ⟨%d4, H4⟩⟩
    iapply (run_first c (grid1.coords t) _ _ _ _ _ _ _ _ _ _ _ _ _ _ hc0 hc1 (iblk1 V c 0 t) (iblk1 V c 1 t) _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [Hs0 Hs1 HS0 HS1 Hg]
    · isplitr [Hg]
      · isplitl [Hs0]; · iexact Hs0
        isplitl [Hs1]; · iexact Hs1
        isplitl [HS0]; · iexact HS0
        iexact HS1
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val = 49
    · have hc0 : ¬cond1_0 (grid1.coords t) := fun h => h0 ((hcond1_0 t).mp h)
      have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [show (dat1 V c).leavesExact 4 t = owns (c : Thread nD τ) (st1_4 t) fullShare ((dat1 V c).after 4 t) from by
        unfold Dat.leavesExact; rw [liveAt1_4 t hc1], after1_4]
      rw [acc_later V c t h0]; dsimp only
      rw [PhiS_castSucc V c t, PhiS_pos V c _ _ h0]
      iintro ⟨⟨⟨Hs0, Hs1, HS0, HS1⟩, Hg⟩, Ho, ⟨%d0, H0⟩, ⟨%d1, H1⟩, ⟨%d2, H2⟩, ⟨%d3, H3⟩, ⟨%d4, H4⟩⟩
      iapply (run_last c (grid1.coords t) _ _ _ _ _ _ _ _ _ _ _ _ _ _ hc0 hc1 (iblk1 V c 0 t) (iblk1 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hs0 Hs1 HS0 HS1 Hg]
      · isplitr [Hg]
        · isplitl [Hs0]; · iexact Hs0
          isplitl [Hs1]; · iexact Hs1
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1), Dat.leavesExact_idle (dat1 V c) 4 t (idleAt1_4 t hc1) (noFlush1_4 t hc1)]
      rw [acc_later V c t h0]; dsimp only
      rw [PhiS_castSucc V c t, PhiS_pos V c _ _ h0]
      iintro ⟨⟨⟨Hs0, Hs1, HS0, HS1⟩, Hg⟩, Ho, ⟨%d0, H0⟩, ⟨%d1, H1⟩, ⟨%d2, H2⟩, ⟨%d3, H3⟩, ⟨%d4, H4⟩⟩
      iapply (run_mid c (grid1.coords t) _ _ _ _ _ _ _ _ _ _ _ _ _ _ hc0 hc1 (iblk1 V c 0 t) (iblk1 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [Hs0 Hs1 HS0 HS1 Hg]
      · isplitr [Hg]
        · isplitl [Hs0]; · iexact Hs0
          isplitl [Hs1]; · iexact Hs1
          isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the accumulators' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 50 := N_1; omega), PhiA1_eq]
  iintro ⟨⟨Hs0, Hs1, HS0, HS1⟩, Hg⟩
  isplitr [Hg]
  · isplitl [Hs0]; · iexact Hs0
    isplitl [Hs1]; · iexact Hs1
    isplitl [HS0]; · iexists _; iexact HS0
    iexists _; iexact HS1
  iexact Hg

end Obligation

end Cert.KernelIdeal.Reg1

end
-- ==== Proof.KIRun.lean ====
/-
  The whole program as the library's list of segments — the logistic kernel's region, the host operations that gather
  and stack the literal values and sign words, the clause kernel's region, the three final reshapes — and its run: from
  any memory with zero counters every weakly fair execution terminates, and the final memory holds every unscoped buffer
  at the contents computed here segment by segment (`Gen.V4`), the regions' output arrays at what their write-backs
  leave (`outs`). The frame claim and the value claim are both read off this run.
-/
import proofs.«427304_j81003083202771_3_alg».proof.Proof.Gen.KernelIdeal.Regions
import proofs.«427304_j81003083202771_3_alg».proof.Proof.KIReg0
import proofs.«427304_j81003083202771_3_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- The first region is entered at the launch contents. -/
abbrev E0 : (c : Dev nD) → (b : Ref sig .tc) → Buf (Elt F) ((c : Thread nD τ).loc b) := fun c b => V0 m c b

/-- What the first region leaves in the assignments array. -/
def o1 (c : Dev nD) : Buf (Elt F) ((c : Thread nD τ).loc main_v0) := (Reg0.dat0 (E0 m) c).arrAt 1 cfg0.N

/-- The contents after the first region and the host operations between the regions: the second region's entry. -/
abbrev W2 (c : Dev nD) : Valuation τ sig (Elt F) := StableHlo.after hostOps1 (Function.update (V0 m c) main_v0 (o1 m c))
abbrev E1 : (c : Dev nD) → (b : Ref sig .tc) → Buf (Elt F) ((c : Thread nD τ).loc b) := fun c b => W2 m c b

/-- What the regions leave in the buffers they may change. -/
def outs : Outs (F := F) := fun _ r c =>
  if h : r = main_v0 then h ▸ o1 m c
  else if h : r = main_v42_0 then h ▸ (Reg1.dat1 (E1 m) c).arrAt 2 cfg1.N
  else if h : r = main_v42_1 then h ▸ (Reg1.dat1 (E1 m) c).arrAt 3 cfg1.N
  else if h : r = main_v42_2 then h ▸ (Reg1.dat1 (E1 m) c).arrAt 4 cfg1.N
  else m ((c : Thread nD τ).loc r)

theorem outs_v0 (J : ℕ) (c : Dev nD) : outs m J main_v0 c = o1 m c := by
  unfold outs; rw [dif_pos rfl]
theorem outs_v42_0 (J : ℕ) (c : Dev nD) : outs m J main_v42_0 c = (Reg1.dat1 (E1 m) c).arrAt 2 cfg1.N := by
  unfold outs; rw [dif_neg (by decide), dif_pos rfl]
theorem outs_v42_1 (J : ℕ) (c : Dev nD) : outs m J main_v42_1 c = (Reg1.dat1 (E1 m) c).arrAt 3 cfg1.N := by
  unfold outs; rw [dif_neg (by decide), dif_neg (by decide), dif_pos rfl]
theorem outs_v42_2 (J : ℕ) (c : Dev nD) : outs m J main_v42_2 c = (Reg1.dat1 (E1 m) c).arrAt 4 cfg1.N := by
  unfold outs; rw [dif_neg (by decide), dif_neg (by decide), dif_neg (by decide), dif_pos rfl]

/-- The second region's entry contents are the generated valuation after the host stretch. -/
theorem V2_eq (c : Dev nD) : V2 m (outs m) c = W2 m c := by
  show StableHlo.after hostOps1 (Function.update (V0 m c) main_v0 (outs m 1 main_v0 c)) = _
  rw [outs_v0]

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => Reg0.dat0 (E0 m) c
  | ⟨1, _⟩ => fun c => Reg1.dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## The regions' arrays at their exits -/

theorem pdats_zero (c : Dev nD) : pdats m 0 c = Reg0.dat0 (E0 m) c := rfl
theorem pdats_one (c : Dev nD) : pdats m 1 c = Reg1.dat1 (E1 m) c := rfl

/-- At the first region's exit each of its arrays holds what the pipeline leaves … -/
theorem hF0 (c : Dev nD) : ∀ w : Fin cfg0.W, (pdats m 0 c).arrAt w cfg0.N = (fun b : Ref sig .tc => V1 m (outs m) c b) (Pipeline.arrRef spec0 w)
  | ⟨0, _⟩ => (Reg0.final0_in (E0 m) c).trans (V1_of m (outs m) c main_arg0 (by decide)).symm
  | ⟨1, _⟩ => by
    show (Reg0.dat0 (E0 m) c).arrAt 1 cfg0.N = Function.update (V0 m c) (Proc.devRef .tc main_v0) (outs m 1 main_v0 c) (Proc.devRef .tc main_v0)
    rw [Function.update_self, outs_v0]; rfl
/-- … and every other buffer what it held at entry. -/
theorem hrest0 (c : Dev nD) : ∀ b : Ref sig .tc, b ∉ Finset.univ.image (Pipeline.arrRef spec0) → (fun b : Ref sig .tc => V1 m (outs m) c b) b = E0 m c b :=
  fun b hb => V1_of m (outs m) c b fun h => hb (Finset.mem_image.mpr ⟨1, Finset.mem_univ _, (List.mem_singleton.mp h).symm⟩)

/-- The same for the second region. -/
theorem hF1 (c : Dev nD) : ∀ w : Fin cfg1.W, (pdats m 1 c).arrAt w cfg1.N = (fun b : Ref sig .tc => V3 m (outs m) c b) (Pipeline.arrRef spec1 w)
  | ⟨0, _⟩ => (((Reg1.dat1 (E1 m) c).arrAt_in 0 rfl cfg1.N).trans (Reg1.A_eq1 (E1 m) c 0)).trans
      (((V3_of m (outs m) c main_v37 (by decide)).trans (congrFun (V2_eq m c) _)).symm)
  | ⟨1, _⟩ => (((Reg1.dat1 (E1 m) c).arrAt_in 1 rfl cfg1.N).trans (Reg1.A_eq1 (E1 m) c 1)).trans
      (((V3_of m (outs m) c main_v41 (by decide)).trans (congrFun (V2_eq m c) _)).symm)
  | ⟨2, _⟩ => by
    show (Reg1.dat1 (E1 m) c).arrAt 2 cfg1.N = Function.update (Function.update (Function.update (V2 m (outs m) c) (Proc.devRef .tc main_v42_0) (outs m 3 main_v42_0 c)) (Proc.devRef .tc main_v42_1) (outs m 3 main_v42_1 c)) (Proc.devRef .tc main_v42_2) (outs m 3 main_v42_2 c) (Proc.devRef .tc main_v42_0)
    rw [Function.update_of_ne (StableHlo.devRef_ne_of_ne (by decide)), Function.update_of_ne (StableHlo.devRef_ne_of_ne (by decide)), Function.update_self, outs_v42_0]
  | ⟨3, _⟩ => by
    show (Reg1.dat1 (E1 m) c).arrAt 3 cfg1.N = Function.update (Function.update (Function.update (V2 m (outs m) c) (Proc.devRef .tc main_v42_0) (outs m 3 main_v42_0 c)) (Proc.devRef .tc main_v42_1) (outs m 3 main_v42_1 c)) (Proc.devRef .tc main_v42_2) (outs m 3 main_v42_2 c) (Proc.devRef .tc main_v42_1)
    rw [Function.update_of_ne (StableHlo.devRef_ne_of_ne (by decide)), Function.update_self, outs_v42_1]
  | ⟨4, _⟩ => by
    show (Reg1.dat1 (E1 m) c).arrAt 4 cfg1.N = Function.update (Function.update (Function.update (V2 m (outs m) c) (Proc.devRef .tc main_v42_0) (outs m 3 main_v42_0 c)) (Proc.devRef .tc main_v42_1) (outs m 3 main_v42_1 c)) (Proc.devRef .tc main_v42_2) (outs m 3 main_v42_2 c) (Proc.devRef .tc main_v42_2)
    rw [Function.update_self, outs_v42_2]
theorem hrest1 (c : Dev nD) : ∀ b : Ref sig .tc, b ∉ Finset.univ.image (Pipeline.arrRef spec1) → (fun b : Ref sig .tc => V3 m (outs m) c b) b = E1 m c b :=
  fun b hb => (V3_of m (outs m) c b fun h => hb (by
    rcases List.mem_cons.mp h with rfl | h
    · exact Finset.mem_image.mpr ⟨2, Finset.mem_univ _, rfl⟩
    rcases List.mem_cons.mp h with rfl | h
    · exact Finset.mem_image.mpr ⟨3, Finset.mem_univ _, rfl⟩
    · exact Finset.mem_image.mpr ⟨4, Finset.mem_univ _, (List.mem_singleton.mp h).symm⟩)).trans (congrFun (V2_eq m c) _)

/-! ## The regions as segments -/

-- a library lemma stated over the pinned configuration unifies with the printed one only when unification may unfold
-- plain definitions in a metavariable's type
set_option backward.isDefEq.respectTransparency.types false in
/-- The logistic kernel's region: entered with every unscoped buffer at the launch contents, left with the assignments
    array at what its one write-back leaves; the generator register passes through the region's invariant; nothing owed;
    the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After its last point the clause kernel's invariant gives back the generator register and the scoped rest. -/
theorem hout_1 (c : Dev nD) : ((Reg1.dat1 (E1 m) c).Φ (Fin.last cfg1.N) : sProp 𝕄)
    ⊢ iprop((∃ r, prngReg c r) ∗ BI.emp ∗ Pipeline.scopedRest (Ix := Unit) (Name := ℕ) (U := UR sig nD τ) (Lvl := ℕ) (Val := Elt F) spec1 c) := by
  have h := Reg1.hout1 (E1 m) c
  unfold Pipeline.ΦA at h
  iintro H
  ihave H' := h $$ H
  icases H' with ⟨Hr, Hp⟩
  isplitl [Hp]; · iexact Hp
  isplitr; · iempintro
  iexact Hr

set_option backward.isDefEq.respectTransparency.types false in
/-- The clause kernel's region: entered with every unscoped buffer at the contents after the host stretch, left with its
    three output arrays at what their write-backs leave; its invariant starts and ends at what the region is handed. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (E1 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [V2_eq m c]
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout_1 m c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b : Ref sig .tc => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What the launch deals a core besides its buffers makes what rides along. -/
theorem rest_of_launch (ρ : Dev nD → PrngReg) (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (R c : sProp 𝕄) := by
  iintro ⟨-, HO, -, Hp, -⟩
  isplitl [Hp]; · iexists _; iexact Hp
  iexists ∅; iexact HO

/-- The launch's ghost element is the pipeline library's, with nothing for the cores besides. -/
theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core's share of the launch makes what rides along, on all cores at once. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R c) : sProp 𝕄) := bigSep_mono fun c _ => rest_of_launch ρ c
  iintro ⟨H, -⟩
  imodintro
  iapply hm
  iexact H

-- the conditional frame's implicit arguments are found by unifying its conclusion with this one
set_option backward.isDefEq.respectTransparency.types false in
/-- THE FRAME: from any memory with zero counters every weakly fair execution of the program terminates, nothing faulting,
    and the three argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp)) (u₀ := (initOf (Pipeline.cells cfgs cellOf_inj) (Pipeline.launchToks cfgs cellOf_inj))) (hu₀ := launch_ghost)
    (E := fun _ c => R c) (hE0 := launch_rest ρ) (hE2 := fun c => by iintro ⟨-, H⟩; iexact H)
    (R0 := reg0 m) (hpre0 := fun c => .rfl) (hpost0 := fun c => .rfl)
    (R1 := reg1 m) (hpre1 := fun c => .rfl) (hpost1 := fun c => .rfl)

end Cert.KernelIdeal.Run

end
-- ==== Proof.Spec.lean ====
/-
  What the program computes, as mathematics over the extended reals, with no program in sight.

  A soft SAT evaluation: variable `k` has the soft assignment `σ(x k)` (the logistic of its logit); literal `j` of clause
  `n` names a variable by a 32-bit word (a negative word counts from the end of the table, and the resulting index is
  clamped into the table, as an array lookup does) and has the value `σ` of that variable if its sign word is 1 and
  `1 − σ` otherwise; a clause's satisfaction is the largest of its three literal values; the formula's is the least
  clause satisfaction; and a clause counts as satisfied when its satisfaction exceeds one half.
  Float constants are kept as the words that encode them (`Ideal.ofBits`): 0x3F800000 is 1, 0x3F000000 is 1/2,
  0xFF800000 is −∞, 0x7F800000 is +∞, 0x00000000 is 0; no proof below needs their values except where it says so.
-/
import Idealize.ShloMosaic.PureOps.Ideal
import Idealize.ShloMosaic.Lib.ValueIdx

noncomputable section

namespace Cert.Spec

open Idealize.ShloMosaic Idealize.ShloMosaic.ValueIdx
open scoped BigOperators

/-- The table index a literal's variable word reads: a negative word has the table's length added, and the word is then
    read signed and clamped into the table. -/
def pick (v : BitVec 32) : Fin 1000000 :=
  ⟨min (Scalar.select (IntOp.cmpi .slt v 0#32) (IntOp.addi v 1000000#32) v).toInt.toNat (1000000 - 1), by omega⟩

/-- The soft assignment of every variable: the logistic of its logit. -/
def asgV (x : (⟨1, ![1000000]⟩ : Shape).Idx → Ideal .f32) : (⟨1, ![1000000]⟩ : Shape).Idx → Ideal .f32 :=
  fun i => Ideal.logistic (x i)

/-- The value of literal `j` of clause `n`: its variable's assignment if the sign word is 1, else one minus it. -/
def lit (x : (⟨1, ![1000000]⟩ : Shape).Idx → Ideal .f32) (vars signs : (⟨2, ![4000000, 3]⟩ : Shape).Idx → BitVec 32)
    (n : Fin 4000000) (j : Fin 3) : Ideal .f32 :=
  Scalar.select (IntOp.cmpi .eq (signs (ix2 n j)) 1#32) (asgV x (ix1 (pick (vars (ix2 n j)))))
    (Ideal.ofBits .f32 0x3F800000#32 - asgV x (ix1 (pick (vars (ix2 n j)))))

/-- A clause's satisfaction: the largest of its three literal values, from −∞. -/
def csat (x : (⟨1, ![1000000]⟩ : Shape).Idx → Ideal .f32) (vars signs : (⟨2, ![4000000, 3]⟩ : Shape).Idx → BitVec 32)
    (n : Fin 4000000) : Ideal .f32 :=
  (Finset.univ : Finset (Fin 3)).fold max (Ideal.ofBits .f32 0xFF800000#32) (fun j => lit x vars signs n j)

/-- The formula's satisfaction: the least clause satisfaction, from +∞. -/
def allSat (x : (⟨1, ![1000000]⟩ : Shape).Idx → Ideal .f32) (vars signs : (⟨2, ![4000000, 3]⟩ : Shape).Idx → BitVec 32) : Ideal .f32 :=
  (Finset.univ : Finset (Fin 4000000)).fold min (Ideal.ofBits .f32 0x7F800000#32) (fun n => csat x vars signs n)

/-- One for a clause whose satisfaction exceeds one half, zero otherwise. -/
def hit (x : (⟨1, ![1000000]⟩ : Shape).Idx → Ideal .f32) (vars signs : (⟨2, ![4000000, 3]⟩ : Shape).Idx → BitVec 32)
    (n : Fin 4000000) : Ideal .f32 :=
  Scalar.select (FloatOps.cmpf (F := Ideal) (φ := .f32) .ogt (csat x vars signs n) (Ideal.ofBits .f32 0x3F000000#32))
    (Ideal.ofBits .f32 0x3F800000#32) (Ideal.ofBits .f32 0x00000000#32)

/-- The number of satisfied clauses. -/
def nSat (x : (⟨1, ![1000000]⟩ : Shape).Idx → Ideal .f32) (vars signs : (⟨2, ![4000000, 3]⟩ : Shape).Idx → BitVec 32) : Ideal .f32 :=
  ∑ n : Fin 4000000, hit x vars signs n

/-- The four results as arrays: the assignments, the clause satisfactions, and the two scalars. -/
def res1 (x : (⟨1, ![1000000]⟩ : Shape).Idx → Ideal .f32) (vars signs : (⟨2, ![4000000, 3]⟩ : Shape).Idx → BitVec 32) :
    (⟨1, ![4000000]⟩ : Shape).Idx → Ideal .f32 := fun i => csat x vars signs (i 0)
def res2 (x : (⟨1, ![1000000]⟩ : Shape).Idx → Ideal .f32) (vars signs : (⟨2, ![4000000, 3]⟩ : Shape).Idx → BitVec 32) :
    (⟨0, ![]⟩ : Shape).Idx → Ideal .f32 := fun _ => allSat x vars signs
def res3 (x : (⟨1, ![1000000]⟩ : Shape).Idx → Ideal .f32) (vars signs : (⟨2, ![4000000, 3]⟩ : Shape).Idx → BitVec 32) :
    (⟨0, ![]⟩ : Shape).Idx → Ideal .f32 := fun _ => nSat x vars signs

end Cert.Spec

end
-- ==== Proof.KIHost.lean ====
/-
  What the host computes between and after the two kernels, as values.

  Between the kernels the host cuts the three columns out of the [4000000, 3] arrays of variable words and of sign
  words, wraps each negative variable word (adds the table's length), gathers the assignment table at each wrapped word
  (the gather reads the word signed and clamps it into the table) and stacks the three gathered columns into a
  [3, 4000000] array; the sign columns are stacked the same way. Read at `(j, n)` the first is the assignment of the
  variable that literal `j` of clause `n` names and the second is that literal's sign word. After the second kernel three
  reshapes drop unit axes.
-/
import proofs.«427304_j81003083202771_3_alg».proof.Proof.Gen.KernelIdeal.Launch
import proofs.«427304_j81003083202771_3_alg».proof.Proof.Spec
import Idealize.ShloMosaic.Lib.StableHlo.Run
import Idealize.ShloMosaic.Lib.ValueIdx
import Idealize.ShloMosaic.Lib.Pipeline.Value

noncomputable section

namespace Cert.KernelIdeal.HostVal

open Idealize.ShloMosaic Idealize.ShloMosaic.ValueIdx Idealize.ShloMosaic.StableHlo
open Cert.KernelIdeal Cert.KernelIdeal.Gen

variable {F : FTy → Type} [FloatOps F]

/-! ## An operation's result, read off a list of operations -/

/-- An operation over THREE literal references leaves, at its result, its function of the three contents, each read at
    its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- Unfolds the fold over a literal list of operations and rewrites each operation's result: at its own result
    reference to its function's value, at any other reference to what was there. -/
local macro "host_results" : tactic =>
  `(tactic| (dsimp only [StableHlo.after_cons, StableHlo.after_nil]
             repeat (first
               | rw [StableHlo.nullary_result] | rw [StableHlo.unary_result] | rw [StableHlo.binary_result] | rw [StableHlo.ternary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-! ## The two stacked arrays as terms

Between the two kernels the host cuts the three columns out of an [4000000, 3] word array (a slice and a reshape each),
wraps a negative variable word (adds the table's length), gathers the assignment of each wrapped word (the gather reads
the word signed and clamps it into the table), and stacks the three gathered columns, each as a [1, 4000000] row, into a
[3, 4000000] array; the sign columns are stacked the same way, ungathered. -/

section Terms
variable {α : Type}

/-- Column `c` of a [4000000, 3] array as a flat array: the slice at column offset `c`, reshaped. -/
def col (off : Fin 2 → Nat) (h : S4000000x3.Slices off S4000000x1) (v : S4000000x3.Idx → α) : S4000000.Idx → α :=
  shapeCast S4000000 (extractStridedSlice S4000000x1 off v h) shapeCasts_S4000000x1_S4000000

/-- A variable word wrapped: a negative word has the table's length added. -/
def wrap (v : IVec S4000000 32) : IVec S4000000 32 :=
  select (cmpi .slt v (broadcastInDim S4000000 ![] bcast_S_S4000000 (constantI S_ 32 0#32)))
    (addi v (broadcastInDim S4000000 ![] bcast_S_S4000000 (constantI S_ 32 1000000#32))) v

/-- The table gathered at a flat array of words: each word wrapped, then read signed and clamped into the table. -/
def gcol (a : S1000000.Idx → α) (v : IVec S4000000 32) : S4000000.Idx → α :=
  Host.gather gather_S1000000_S4000000x1_S4000000_n_0_n_n_0_1_1 a
    (broadcastInDim S4000000x1 ![0] bcast_S4000000_S4000000x1_0 (wrap v))

/-- A flat array as a one-row matrix. -/
def row (x : S4000000.Idx → α) : S1x4000000.Idx → α :=
  broadcastInDim S1x4000000 ![1] bcast_S4000000_S1x4000000_1 x

/-- Three one-row matrices stacked into a three-row one. -/
def stack3 (x0 x1 x2 : S1x4000000.Idx → α) : S3x4000000.Idx → α :=
  concatenate S3x4000000 0 [⟨S1x4000000, x0⟩, ⟨S1x4000000, x1⟩, ⟨S1x4000000, x2⟩]
    concatenates_S1x4000000_S1x4000000_S1x4000000_S3x4000000_d0

end Terms

/-- The gathered assignments, stacked: row `j` is the table gathered at column `j` of the variable words. -/
def gstack (a : (⟨S1000000, .f32⟩ : BufTy).Contents (Elt F)) (v : (⟨S4000000x3, .i32⟩ : BufTy).Contents (Elt F)) :
    (⟨S3x4000000, .f32⟩ : BufTy).Contents (Elt F) :=
  stack3 (row (gcol a (col ![0, 0] slices_S4000000x3_S4000000x1_0_0 v)))
    (row (gcol a (col ![0, 1] slices_S4000000x3_S4000000x1_0_1 v)))
    (row (gcol a (col ![0, 2] slices_S4000000x3_S4000000x1_0_2 v)))

/-- The sign words, stacked: row `j` is column `j` of the sign words. -/
def sstack (s : (⟨S4000000x3, .i32⟩ : BufTy).Contents (Elt F)) : (⟨S3x4000000, .i32⟩ : BufTy).Contents (Elt F) :=
  stack3 (row (col ![0, 0] slices_S4000000x3_S4000000x1_0_0 s))
    (row (col ![0, 1] slices_S4000000x3_S4000000x1_0_1 s))
    (row (col ![0, 2] slices_S4000000x3_S4000000x1_0_2 s))

/-! ## The terms read at an index -/

section Apply
variable {α : Type}

/-- A column read at `n` is the array at `(n, c)`. -/
theorem col_apply (off : Fin 2 → Nat) (h : S4000000x3.Slices off S4000000x1) (v : S4000000x3.Idx → α) (n : Fin 4000000)
    (c : Fin 3) (h0 : off 0 = 0) (h1 : off 1 = c.val) : col off h v (ix1 n) = v (ix2 n c) := by
  unfold col
  refine (shapeCast_apply (s := S4000000x1) (t := S4000000) _ _ (ix1 n) (ix2 n (0 : Fin 1)) ?_).trans ?_
  · rw [Shape.rowMajor_val_two, Shape.rowMajor_val_one]
    show n.val * 1 + 0 = n.val
    omega
  · refine extractStridedSlice_apply off v h (ix2 n (0 : Fin 1)) (ix2 n c) fun a => ?_
    match a with
    | ⟨0, _⟩ => show n.val = off 0 + n.val; rw [h0]; omega
    | ⟨1, _⟩ => show c.val = off 1 + 0; rw [h1]; rfl

/-- A wrapped word is the word, with the table's length added when it is negative. -/
theorem wrap_apply (v : IVec S4000000 32) (n : Fin 4000000) :
    wrap v (ix1 n) = Scalar.select (IntOp.cmpi .slt (v (ix1 n)) 0#32) (IntOp.addi (v (ix1 n)) 1000000#32) (v (ix1 n)) := rfl

/-- The gather read at `n`: the table at the start word `(n, 0)`, read signed and clamped into the table. -/
theorem gather_apply (x : S1000000.Idx → α) (idx : IVec S4000000x1 32) (n : Fin 4000000) :
    Host.gather gather_S1000000_S4000000x1_S4000000_n_0_n_n_0_1_1 x idx (ix1 n)
      = x (ix1 ⟨min (idx (ix2 n (0 : Fin 1))).toInt.toNat (1000000 - 1), by omega⟩) := by
  unfold Host.gather
  congr 1
  funext a
  obtain rfl : a = 0 := Subsingleton.elim _ _
  refine Fin.ext ?_
  show gather_S1000000_S4000000x1_S4000000_n_0_n_n_0_1_1.start (ix1 n) idx 0
    + gather_S1000000_S4000000x1_S4000000_n_0_n_n_0_1_1.batchCoord (ix1 n) 0
    + gather_S1000000_S4000000x1_S4000000_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  show gather_S1000000_S4000000x1_S4000000_n_0_n_n_0_1_1.start (ix1 n) idx 0 = _
  unfold GatherDims.start
  rw [dif_pos (show (0 : Fin 1) ∈ gather_S1000000_S4000000x1_S4000000_n_0_n_n_0_1_1.startIndexMap from List.mem_singleton.mpr rfl)]
  have hsi : gather_S1000000_S4000000x1_S4000000_n_0_n_n_0_1_1.siIdx (ix1 n)
      ⟨List.idxOf (0 : Fin 1) gather_S1000000_S4000000x1_S4000000_n_0_n_n_0_1_1.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

end Apply

section Apply2
variable {α : Type}

/-- A one-row matrix read at `(0, n)` is the flat array at `n`. -/
theorem row_apply (x : S4000000.Idx → α) (n : Fin 4000000) : row x (ix2 (0 : Fin 1) n) = x (ix1 n) := by
  unfold row
  refine broadcastInDim_apply (s := S4000000) (t := S1x4000000) _ _ x (ix2 (0 : Fin 1) n) (ix1 n) fun a => ?_
  match a with
  | ⟨0, _⟩ => exact (if_neg (show ¬ (4000000 : Nat) = 1 by decide)).symm

/-- The gathered column read at `n`: the table at the word's index — wrapped, read signed, clamped. -/
theorem gcol_apply (a : S1000000.Idx → α) (v : IVec S4000000 32) (n : Fin 4000000) :
    gcol a v (ix1 n) = a (ix1 (Cert.Spec.pick (v (ix1 n)))) := by
  unfold gcol
  rw [gather_apply]
  have hb : broadcastInDim S4000000x1 ![0] bcast_S4000000_S4000000x1_0 (wrap v) (ix2 n (0 : Fin 1)) = wrap v (ix1 n) := by
    refine broadcastInDim_apply (s := S4000000) (t := S4000000x1) _ _ (wrap v) (ix2 n (0 : Fin 1)) (ix1 n) fun a => ?_
    match a with
    | ⟨0, _⟩ => exact (if_neg (show ¬ (4000000 : Nat) = 1 by decide)).symm
  refine congrArg (fun k : Fin 1000000 => a (ix1 k)) (Fin.ext ?_)
  show min (broadcastInDim S4000000x1 ![0] bcast_S4000000_S4000000x1_0 (wrap v) (ix2 n (0 : Fin 1))).toInt.toNat (1000000 - 1) = _
  rw [hb, wrap_apply]
  rfl

/-- Three stacked rows read at `(j, n)`: row `j` at `(0, n)`. -/
theorem stack3_apply (x0 x1 x2 : S1x4000000.Idx → α) (j : Fin 3) (n : Fin 4000000) :
    stack3 x0 x1 x2 (ix2 j n) = (![x0, x1, x2] : Fin 3 → S1x4000000.Idx → α) j (ix2 (0 : Fin 1) n) := by
  unfold stack3
  have hi : ∀ b : Fin S1x4000000.rank, b.cast (rfl : S1x4000000.rank = S3x4000000.rank) ≠ (0 : Fin S3x4000000.rank) →
      ((ix2 (0 : Fin 1) n : S1x4000000.Idx) b).val = ((ix2 j n : S3x4000000.Idx) (b.cast rfl)).val := fun b hb =>
    match b, hb with
    | ⟨0, _⟩, hb => absurd rfl hb
    | ⟨1, _⟩, _ => rfl
  match j with
  | ⟨0, _⟩ =>
    exact concatenate_apply_piece (t := S3x4000000) 0 _ _ _ 0 (by show (0 : Nat) < 3; omega) S1x4000000 x0 rfl rfl 0 rfl (ix2 (0 : Fin 1) n) hi rfl
  | ⟨1, _⟩ =>
    exact concatenate_apply_piece (t := S3x4000000) 0 _ _ _ 1 (by show (1 : Nat) < 3; omega) S1x4000000 x1 rfl rfl 1 rfl (ix2 (0 : Fin 1) n) hi rfl
  | ⟨2, _⟩ =>
    exact concatenate_apply_piece (t := S3x4000000) 0 _ _ _ 2 (by show (2 : Nat) < 3; omega) S1x4000000 x2 rfl rfl 2 rfl (ix2 (0 : Fin 1) n) hi rfl

end Apply2

theorem gstack_apply (a : (⟨S1000000, .f32⟩ : BufTy).Contents (Elt F)) (v : (⟨S4000000x3, .i32⟩ : BufTy).Contents (Elt F))
    (j : Fin 3) (n : Fin 4000000) :
    gstack a v (ix2 j n) = a (ix1 (Cert.Spec.pick (v (ix2 n j)))) := by
  unfold gstack
  rw [stack3_apply]
  match j with
  | ⟨0, _⟩ => exact (row_apply _ n).trans ((gcol_apply a _ n).trans (by rw [col_apply _ _ v n 0 rfl rfl]; rfl))
  | ⟨1, _⟩ => exact (row_apply _ n).trans ((gcol_apply a _ n).trans (by rw [col_apply _ _ v n 1 rfl rfl]; rfl))
  | ⟨2, _⟩ => exact (row_apply _ n).trans ((gcol_apply a _ n).trans (by rw [col_apply _ _ v n 2 rfl rfl]; rfl))

theorem sstack_apply (s : (⟨S4000000x3, .i32⟩ : BufTy).Contents (Elt F)) (j : Fin 3) (n : Fin 4000000) :
    sstack (F := F) s (ix2 j n) = s (ix2 n j) := by
  unfold sstack
  rw [stack3_apply]
  match j with
  | ⟨0, _⟩ => exact (row_apply (col ![0, 0] slices_S4000000x3_S4000000x1_0_0 s) n).trans (col_apply _ _ s n 0 rfl rfl)
  | ⟨1, _⟩ => exact (row_apply (col ![0, 1] slices_S4000000x3_S4000000x1_0_1 s) n).trans (col_apply _ _ s n 1 rfl rfl)
  | ⟨2, _⟩ => exact (row_apply (col ![0, 2] slices_S4000000x3_S4000000x1_0_2 s) n).trans (col_apply _ _ s n 2 rfl rfl)

/-! ## The two stacked arrays after the host's operations -/

set_option maxHeartbeats 4000000 in
theorem v37_eq (X : Valuation τ sig (Elt F)) :
    StableHlo.after hostOps1 X (Proc.devRef .tc main_v37)
      = gstack (X (Proc.devRef .tc main_v0)) (X (Proc.devRef .tc main_arg1)) := by
  host_results
  rfl

set_option maxHeartbeats 4000000 in
theorem v41_eq (X : Valuation τ sig (Elt F)) :
    StableHlo.after hostOps1 X (Proc.devRef .tc main_v41) = sstack (F := F) (X (Proc.devRef .tc main_arg2)) := by
  host_results
  rfl

/-! ## The three reshapes after the second kernel -/

theorem v43_apply (X : Valuation τ sig (Elt F)) (n : Fin 4000000) :
    StableHlo.after hostOps2 X (Proc.devRef .tc main_v43) (ix1 n) = X (Proc.devRef .tc main_v42_0) (ix2 (0 : Fin 1) n) := by
  host_results
  refine shapeCast_apply (s := S1x4000000) (t := S4000000) _ _ (ix1 n) (ix2 (0 : Fin 1) n) ?_
  rw [Shape.rowMajor_val_two, Shape.rowMajor_val_one]
  show 0 * 4000000 + n.val = n.val
  omega

theorem v44_apply (X : Valuation τ sig (Elt F)) :
    StableHlo.after hostOps2 X (Proc.devRef .tc main_v44) ix0 = X (Proc.devRef .tc main_v42_1) (ix2 (0 : Fin 1) (0 : Fin 1)) := by
  host_results
  refine shapeCast_apply (s := S1x1) (t := S_) _ _ ix0 (ix2 (0 : Fin 1) (0 : Fin 1)) ?_
  rw [Shape.rowMajor_val_two]
  exact (Shape.rowMajorPi_zero _ _).symm

theorem v45_apply (X : Valuation τ sig (Elt F)) :
    StableHlo.after hostOps2 X (Proc.devRef .tc main_v45) ix0 = X (Proc.devRef .tc main_v42_2) (ix2 (0 : Fin 1) (0 : Fin 1)) := by
  host_results
  refine shapeCast_apply (s := S1x1) (t := S_) _ _ ix0 (ix2 (0 : Fin 1) (0 : Fin 1)) ?_
  rw [Shape.rowMajor_val_two]
  exact (Shape.rowMajorPi_zero _ _).symm

end Cert.KernelIdeal.HostVal

end
-- ==== Proof.LibBlocks.lean ====
/- Folds and sums over an index range cut into equal blocks: a running value that takes in one block per step is,
   after step n, the fold (the sum) over the first n + 1 blocks; and a fold over `Fin N` of a function of the index's
   value is the fold over `range N`. General lemmas: nothing of a particular program is mentioned here. -/
import Mathlib.Data.Finset.Fold
import Mathlib.Data.Fintype.Fin
import Mathlib.Order.Interval.Finset.Nat
import Mathlib.Algebra.BigOperators.Fin
import Mathlib.Algebra.BigOperators.Group.Finset.Basic

namespace Cert.LibBlocks

open Finset

section Fold

variable {α : Type*} (op : α → α → α) [hc : Std.Commutative op] [ha : Std.Associative op]

/-- A fold over `Fin n` of a function of the index's value is the fold over `range n`. -/
theorem fold_fin_eq_fold_range (b : α) (f : ℕ → α) (n : ℕ) :
    (univ : Finset (Fin n)).fold op b (fun i => f i.val) = (range n).fold op b f := by
  rw [← Nat.Iio_eq_range, ← Fin.map_valEmbedding_univ, fold_map]
  rfl

/-- With a neutral starting value, the fold over the first `m + k` naturals is the fold over the first `m` combined
    with the fold over the next `k`. -/
theorem fold_range_add (b : α) (hb : ∀ x, op x b = x) (f : ℕ → α) (m : ℕ) : ∀ k : ℕ,
    (range (m + k)).fold op b f = op ((range m).fold op b f) ((range k).fold op b fun l => f (m + l))
  | 0 => by rw [Nat.add_zero, range_zero, fold_empty, hb]
  | k + 1 => by
    rw [← Nat.add_assoc, range_add_one, fold_insert notMem_range_self, range_add_one, fold_insert notMem_range_self,
      fold_range_add b hb f m k, ← ha.assoc, hc.comm (f (m + k)), ha.assoc]

/-- A running value that starts from the neutral value and takes in one block of `B` consecutive entries per step
    is, after step `n`, the fold over the first `B * (n + 1)` entries. -/
theorem fold_blocks (b : α) (hb : ∀ x, op x b = x) (f : ℕ → α) (B T : ℕ) (A : (n : ℕ) → n < T → α)
    (h0 : ∀ h, A 0 h = op b ((range B).fold op b fun l => f (B * 0 + l)))
    (hs : ∀ n h h', A (n + 1) h = op (A n h') ((range B).fold op b fun l => f (B * (n + 1) + l))) :
    ∀ n h, A n h = (range (B * (n + 1))).fold op b f
  | 0, h => by
    rw [h0 h, hc.comm, hb, Nat.mul_zero, Nat.zero_add, Nat.mul_one]
    exact fold_congr fun l _ => by rw [Nat.zero_add]
  | n + 1, h => by
    rw [hs n h (Nat.lt_of_succ_lt h), fold_blocks b hb f B T A h0 hs n (Nat.lt_of_succ_lt h), Nat.mul_succ B (n + 1),
      fold_range_add op b hb f]

end Fold

section Sum

variable {M : Type*} [AddCommMonoid M]

/-- The same for sums: a running sum that starts at zero and adds one block per step is, after step `n`, the sum over
    the first `B * (n + 1)` entries. -/
theorem sum_blocks (f : ℕ → M) (B T : ℕ) (A : (n : ℕ) → n < T → M)
    (h0 : ∀ h, A 0 h = 0 + ∑ l ∈ range B, f (B * 0 + l))
    (hs : ∀ n h h', A (n + 1) h = A n h' + ∑ l ∈ range B, f (B * (n + 1) + l)) :
    ∀ n h, A n h = ∑ m ∈ range (B * (n + 1)), f m
  | 0, h => by
    rw [h0 h, zero_add, Nat.mul_zero, Nat.zero_add, Nat.mul_one]
    exact sum_congr rfl fun l _ => by rw [Nat.zero_add]
  | n + 1, h => by
    rw [hs n h (Nat.lt_of_succ_lt h), sum_blocks f B T A h0 hs n (Nat.lt_of_succ_lt h), Nat.mul_succ B (n + 1),
      sum_range_add]

end Sum

end Cert.LibBlocks
-- ==== Proof.KIValue1.lean ====
/- The second kernel's region read as values, at the ideal float instance: the clause-satisfaction array, the running
   minimum and the running count when the region is left, as functions of the two input arrays the region was entered
   with. Per clause, the satisfaction is the largest of its three literal values (a literal's value is the variable's
   where its sign word is 1, one minus it otherwise); the minimum is over all clauses from +∞; the count adds 1 for each
   clause whose satisfaction exceeds one half. -/
import proofs.«427304_j81003083202771_3_alg».proof.Proof.KIReg1
import proofs.«427304_j81003083202771_3_alg».proof.Proof.LibBlocks
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.KernelIdeal.Value1

open Idealize.ShloMosaic Idealize.ShloMosaic.TcCoe Idealize.SL.Sem
open Idealize.ShloMosaic.Pipeline (Dat)
open Idealize.ShloMosaic.ValueIdx
open Cert.KernelIdeal Cert.KernelIdeal.Gen

/-! ## One clause's satisfaction -/

/-- The satisfaction of clause `n`, from the literal values `g` and the sign words `s` (three rows, one column per
    clause): the largest, from -∞, of the three literals' values. -/
def colSat (g : S3x4000000.Idx → EReal) (s : S3x4000000.Idx → BitVec 32) (n : Fin 4000000) : EReal :=
  (Finset.univ : Finset (Fin 3)).fold max (Ideal.ofBits .f32 0xFF800000#32)
    (fun j => Scalar.select (IntOp.cmpi .eq (s (ix2 j n)) 1#32) (g (ix2 j n)) (Ideal.ofBits .f32 0x3F800000#32 - g (ix2 j n)))

/-- The same within one block of 80000 clauses. -/
def blkSat (x0 : S3x80000.Idx → EReal) (x1 : S3x80000.Idx → BitVec 32) (l : Fin 80000) : EReal :=
  (Finset.univ : Finset (Fin 3)).fold max (Ideal.ofBits .f32 0xFF800000#32)
    (fun j => Scalar.select (IntOp.cmpi .eq (x1 (ix2 j l)) 1#32) (x0 (ix2 j l)) (Ideal.ofBits .f32 0x3F800000#32 - x0 (ix2 j l)))

/-! ## The body's values at an index -/

/-- The largest entry of a column of a three-row block, from the word of -∞. -/
theorem rowsMax_apply (src : FVec Ideal S3x80000 .f32) (h : S3x80000.Reduces [0] S80000) (hφ : FKind.Formats .f32)
    (hacc : (0xFF800000#32 : BitVec 32) = FKind.maximumf.neutral .f32 hφ) (l : Fin 80000) :
    multiReduction .maximumf [0] S80000 src 0xFF800000#32 h hφ hacc (ix1 l)
      = (Finset.univ : Finset (Fin 3)).fold max (Ideal.ofBits .f32 0xFF800000#32) (fun j => src (ix2 j l)) := by
  refine (Ideal.multiReduction_maximumf_single src _ h hφ hacc (ix1 l)).trans ?_
  refine Finset.fold_congr fun k _ => congrArg src (funext fun a => Fin.ext ?_)
  match a with
  | ⟨0, _⟩ => rfl
  | ⟨1, _⟩ => rfl

/-- The clause satisfactions the body stores, at one clause of the block. -/
theorem pay4_apply (x0 : Vec Ideal S3x80000 .f32) (x1 : Vec Ideal S3x80000 .i32) (u : Fin 1) (l : Fin 80000) :
    k1_pay4 x0 x1 (ix2 u l) = blkSat x0 x1 l := by
  unfold k1_pay4 blkSat
  dsimp only
  refine (shapeCast_a_1a_apply _ _ u l).trans ?_
  refine (rowsMax_apply _ _ _ _ l).trans ?_
  simp only [shapeCast_self]
  rfl

/-- The smallest entry of the one row of a clause block, from the word of +∞. -/
theorem colsMin_apply (src : FVec Ideal S1x80000 .f32) (h : S1x80000.Reduces [1] S1) (hφ : FKind.Formats .f32)
    (hacc : (0x7F800000#32 : BitVec 32) = FKind.minimumf.neutral .f32 hφ) (u : Fin 1) :
    multiReduction .minimumf [1] S1 src 0x7F800000#32 h hφ hacc (ix1 u)
      = (Finset.univ : Finset (Fin 80000)).fold min (Ideal.ofBits .f32 0x7F800000#32) (fun l => src (ix2 u l)) := by
  refine (multiReduction_minimumf_eq_fold src _ h hφ hacc (ix1 u)).trans ?_
  refine (h.fold_filter_drop_single _ _ src (ix1 u)).trans ?_
  refine Finset.fold_congr fun k _ => congrArg src (funext fun a => Fin.ext ?_)
  match a with
  | ⟨0, _⟩ => rfl
  | ⟨1, _⟩ => rfl

/-- The sum of the one row of a clause block. -/
theorem colsSum_apply (src : FVec Ideal S1x80000 .f32) (h : S1x80000.Reduces [1] S1) (hφ : FKind.Formats .f32)
    (hacc : (0x00000000#32 : BitVec 32) = FKind.add.neutral .f32 hφ) (u : Fin 1) :
    multiReduction .add [1] S1 src 0x00000000#32 h hφ hacc (ix1 u) = ∑ l : Fin 80000, src (ix2 u l) := by
  refine (Ideal.multiReduction_add_single src _ h hφ hacc (ix1 u)).trans ?_
  refine Finset.sum_congr rfl fun k _ => congrArg src (funext fun a => Fin.ext ?_)
  match a with
  | ⟨0, _⟩ => rfl
  | ⟨1, _⟩ => rfl

/-- One for a satisfaction above one half, zero otherwise. -/
abbrev hit (x : EReal) : EReal :=
  Scalar.select (FloatOps.cmpf (F := Ideal) (φ := .f32) .ogt x (Ideal.ofBits .f32 0x3F000000#32))
    (Ideal.ofBits .f32 0x3F800000#32) (Ideal.ofBits .f32 0x00000000#32)

/-- One pass's running minimum, at its one entry: the smaller of the old value and the block's smallest satisfaction. -/
theorem stepMin_apply (x0 : Vec Ideal S3x80000 .f32) (x1 : Vec Ideal S3x80000 .i32) (a : Vec Ideal S1x1 .f32) (u w : Fin 1) :
    Reg1.stepMin x0 x1 a (ix2 u w)
      = min (a (ix2 u w)) ((Finset.univ : Finset (Fin 80000)).fold min (Ideal.ofBits .f32 0x7F800000#32) (blkSat x0 x1)) := by
  unfold Reg1.stepMin k1_pay5
  dsimp only
  rw [shapeCast_self]
  refine (minimumf_apply _ _ _).trans (congrArg (min (a (ix2 u w))) ?_)
  refine (shapeCast_a_1a_apply _ _ u w).trans ?_
  refine (colsMin_apply _ _ _ _ w).trans ?_
  exact Finset.fold_congr fun l _ => pay4_apply x0 x1 w l

/-- One pass's running count, at its one entry: the old value plus the block's number of satisfactions above one half. -/
theorem stepCnt_apply (x0 : Vec Ideal S3x80000 .f32) (x1 : Vec Ideal S3x80000 .i32) (b : Vec Ideal S1x1 .f32) (u w : Fin 1) :
    Reg1.stepCnt x0 x1 b (ix2 u w) = b (ix2 u w) + ∑ l : Fin 80000, hit (blkSat x0 x1 l) := by
  unfold Reg1.stepCnt k1_pay1 k1_pay6
  dsimp only
  rw [shapeCast_self]
  refine (addf_apply _ _ _).trans (congrArg (b (ix2 u w) + ·) ?_)
  refine (shapeCast_a_1a_apply _ _ u w).trans ?_
  refine (colsSum_apply _ _ _ _ w).trans ?_
  refine Finset.sum_congr rfl fun l _ => ?_
  show Scalar.select (FloatOps.cmpf .ogt (k1_pay4 x0 x1 (ix2 w l)) _) _ _ = _
  rw [pay4_apply]
  rfl

/-- The values the accumulators are reset to: +∞ and zero. -/
theorem pay2_apply (u w : Fin 1) : (k1_pay2 (F := Ideal)) (ix2 u w) = Ideal.ofBits .f32 0x7F800000#32 := by
  unfold k1_pay2
  rw [shapeCast_self]
  rfl
theorem pay3_apply (u w : Fin 1) : (k1_pay3 (F := Ideal)) (ix2 u w) = Ideal.ofBits .f32 0x00000000#32 := by
  unfold k1_pay3
  rw [shapeCast_self]
  rfl

/-! ## The windows' blocks inside their arrays -/

section AtEntry

variable (V : (c : Dev nD) → (b : Ref sig .tc) → Buf (Elt Ideal) ((c : Thread nD τ).loc b))

/-- Where the blocks sit: the two inputs' and the clause output's block at point `t` is block (0, t) of its array;
    the scalar outputs' is their whole array. -/
theorem block_index : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The literal-value block at point `t`, at row `j` and clause `l` of the block, is the array at row `j` and clause
    `80000 t + l`. -/
theorem iblk_g_apply (c : Dev nD) (t : Fin cfg1.N) (j : Fin 3) (l : Fin 80000) (n : Fin 4000000)
    (hn : n.val = 80000 * t.val + l.val) :
    (Reg1.iblk1 V c 0 t : S3x80000.Idx → EReal) (ix2 j l) = (V c main_v37 : S3x4000000.Idx → EReal) (ix2 j n) := by
  unfold Reg1.iblk1
  rw [View.read_apply]
  show (V c main_v37 : S3x4000000.Idx → EReal) _ = _
  congr 1
  funext a
  apply Fin.ext
  match a with
  | ⟨0, _⟩ =>
    show win1_0.index t 0 * 3 + 1 * j.val = j.val
    rw [(block_index t).1]; omega
  | ⟨1, _⟩ =>
    show win1_0.index t 1 * 80000 + 1 * l.val = n.val
    rw [(block_index t).2.1, hn]; omega

/-- The same for the sign words. -/
theorem iblk_s_apply (c : Dev nD) (t : Fin cfg1.N) (j : Fin 3) (l : Fin 80000) (n : Fin 4000000)
    (hn : n.val = 80000 * t.val + l.val) :
    (Reg1.iblk1 V c 1 t : S3x80000.Idx → BitVec 32) (ix2 j l) = (V c main_v41 : S3x4000000.Idx → BitVec 32) (ix2 j n) := by
  unfold Reg1.iblk1
  rw [View.read_apply]
  show (V c main_v41 : S3x4000000.Idx → BitVec 32) _ = _
  congr 1
  funext a
  apply Fin.ext
  match a with
  | ⟨0, _⟩ =>
    show win1_1.index t 0 * 3 + 1 * j.val = j.val
    rw [(block_index t).2.2.1]; omega
  | ⟨1, _⟩ =>
    show win1_1.index t 1 * 80000 + 1 * l.val = n.val
    rw [(block_index t).2.2.2.1, hn]; omega

/-- So a block's clause satisfaction is the arrays' at the clause's place in the whole range. -/
theorem blkSat_iblk (c : Dev nD) (t : Fin cfg1.N) (l : Fin 80000) (n : Fin 4000000) (hn : n.val = 80000 * t.val + l.val) :
    blkSat (Reg1.iblk1 V c 0 t) (Reg1.iblk1 V c 1 t) l = colSat (V c main_v37) (V c main_v41) n := by
  unfold blkSat colSat
  refine Finset.fold_congr fun j _ => ?_
  rw [iblk_g_apply V c t j l n hn, iblk_s_apply V c t j l n hn]

end AtEntry

/-! ## The clause output array -/

section ClauseArray

variable (V : (c : Dev nD) → (b : Ref sig .tc) → Buf (Elt Ideal) ((c : Thread nD τ).loc b))

/-- The clause output array when the region is left: at every clause its satisfaction. -/
abbrev satArray (c : Dev nD) : Buf (Elt Ideal) ((c : Thread nD τ).loc main_v42_0) :=
  (fun i : S1x4000000.Idx => colSat (V c main_v37) (V c main_v41) ⟨(i 1).val, idx2_lt1 i⟩)

/-- What point `t` writes back is its block of that array: clause `l` of the block is clause `80000 t + l`. -/
theorem flushed_sat (c : Dev nD) (t : Fin cfg1.N) :
    (Reg1.dat1 V c).flushed 2 t = ((cfg1.win 2).blk t).view.read (Elt Ideal) (satArray V c) := by
  show (cfg1.win 2).cut (grid1.coords t) ((Reg1.dat1 V c).after 2 t) = _
  rw [Reg1.after1_2]
  funext y
  rw [View.read_apply]
  obtain ⟨u, l, rfl⟩ : ∃ (u : Fin 1) (l : Fin 80000), y = ix2 u l := ⟨y 0, y 1, eq_ix2 (n0 := 1) (n1 := 80000) y⟩
  show (k1_pay4 (F := Ideal) _ _ : S1x80000.Idx → EReal) (ix2 u l)
    = (satArray V c : S1x4000000.Idx → EReal) (((cfg1.win 2).blk t).view.emb (ix2 u l))
  rw [pay4_apply]
  refine blkSat_iblk V c t _ _ ?_
  show win1_2.index t 1 * 80000 + 1 * l.val = 80000 * t.val + l.val
  rw [(block_index t).2.2.2.2.2.1]; omega

/-- Every clause lies in the block of the point `clause / 80000`, and every point writes its block back. -/
theorem sat_covered (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 1 := idx2_lt0 (n0 := 1) (n1 := 4000000) i
  have h1 : (i 1 : Nat) < 4000000 := idx2_lt1 (n0 := 1) (n1 := 4000000) i
  have hN : cfg1.N = 50 := N_1
  have hlt : (i 1 : Nat) / 80000 < cfg1.N := by rw [hN]; omega
  refine ⟨⟨(i 1 : Nat) / 80000, hlt⟩, flush1_2 _, ?_⟩
  show i ∈ ((View.whole main_v42_0).slice (win1_2.rect ⟨(i 1 : Nat) / 80000, hlt⟩)).set
  rw [View.set_slice_whole, Rect.mem_set_unit]
  intro a
  match a with
  | ⟨0, _⟩ =>
    show win1_2.index _ 0 * 1 ≤ (i 0 : Nat) ∧ (i 0 : Nat) < win1_2.index _ 0 * 1 + 1
    rw [(block_index _).2.2.2.2.1]; omega
  | ⟨1, _⟩ =>
    show win1_2.index _ 1 * 80000 ≤ (i 1 : Nat) ∧ (i 1 : Nat) < win1_2.index _ 1 * 80000 + 80000
    rw [(block_index _).2.2.2.2.2.1]
    show (i 1 : Nat) / 80000 * 80000 ≤ (i 1 : Nat) ∧ (i 1 : Nat) < (i 1 : Nat) / 80000 * 80000 + 80000
    omega

/-- So the clause output array ends holding every clause's satisfaction. -/
theorem final_sat (c : Dev nD) : (Reg1.dat1 V c).arrAt 2 cfg1.N = satArray V c :=
  (Reg1.dat1 V c).arrAt_eq_of_cover 2 (satArray V c) (fun t _ => flushed_sat V c t) (sat_covered c)

theorem final1_sat (c : Dev nD) (n : Fin 4000000) :
    ((Reg1.dat1 V c).arrAt 2 cfg1.N : S1x4000000.Idx → EReal) (ix2 (0 : Fin 1) n) = colSat (V c main_v37) (V c main_v41) n := by
  rw [final_sat]

end ClauseArray

/-! ## The two scalar outputs -/

section Scalars

variable (V : (c : Dev nD) → (b : Ref sig .tc) → Buf (Elt Ideal) ((c : Thread nD τ).loc b))

/-- The word of +∞ is the top of the extended reals, which `min` ignores. -/
theorem posInf_eq_top : Ideal.ofBits .f32 0x7F800000#32 = (⊤ : EReal) := by simp [Ideal.ofBits, Ideal.ieee]
theorem min_posInf (x : EReal) : min x (Ideal.ofBits .f32 0x7F800000#32) = x := by
  rw [posInf_eq_top]; exact min_top_right x

/-- The grid has fifty points; the last is point 49. -/
theorem lt_points : 49 < cfg1.N := by rw [show cfg1.N = 50 from N_1]; decide
abbrev lastPoint : Fin cfg1.N := ⟨49, lt_points⟩

/-- Only the last point writes the scalar outputs back. -/
theorem eq_last_of_flush3 (t : Fin cfg1.N) (h : (cfg1.win 3).flush t = true) : t = lastPoint := by
  have h1 := (flush1_3 t).mp h
  have h2 := t.isLt
  have hN : cfg1.N = 50 := N_1
  exact Fin.ext (show t.val = 49 by omega)
theorem eq_last_of_flush4 (t : Fin cfg1.N) (h : (cfg1.win 4).flush t = true) : t = lastPoint := by
  have h1 := (flush1_4 t).mp h
  have h2 := t.isLt
  have hN : cfg1.N = 50 := N_1
  exact Fin.ext (show t.val = 49 by omega)

/-- The scalar outputs' one block starts at entry (0, 0) of their arrays. -/
theorem min_offset_zero (t : Fin cfg1.N) : (fun a => win1_3.index t a * main_v42_1.ty.shape.size a) = fun _ => 0 :=
  funext fun a => by
    match a with
    | ⟨0, _⟩ => show win1_3.index t 0 * _ = 0; rw [(block_index t).2.2.2.2.2.2.1, Nat.zero_mul]
    | ⟨1, _⟩ => show win1_3.index t 1 * _ = 0; rw [(block_index t).2.2.2.2.2.2.2.1, Nat.zero_mul]
theorem cnt_offset_zero (t : Fin cfg1.N) : (fun a => win1_4.index t a * main_v42_2.ty.shape.size a) = fun _ => 0 :=
  funext fun a => by
    match a with
    | ⟨0, _⟩ => show win1_4.index t 0 * _ = 0; rw [(block_index t).2.2.2.2.2.2.2.2.1, Nat.zero_mul]
    | ⟨1, _⟩ => show win1_4.index t 1 * _ = 0; rw [(block_index t).2.2.2.2.2.2.2.2.2, Nat.zero_mul]

/-- The two accumulators after the last point, as the scalar outputs' arrays. -/
abbrev minArray (c : Dev nD) : Buf (Elt Ideal) ((c : Thread nD τ).loc main_v42_1) := (Reg1.acc V c 49 lt_points).1
abbrev cntArray (c : Dev nD) : Buf (Elt Ideal) ((c : Thread nD τ).loc main_v42_2) := (Reg1.acc V c 49 lt_points).2

/-- The minimum output ends at the running minimum after the last point: that point's write-back is of the whole array. -/
theorem final_min_array (c : Dev nD) : (Reg1.dat1 V c).arrAt 3 cfg1.N = minArray V c :=
  (Reg1.dat1 V c).arrAt_eq_of_cover 3 (minArray V c)
    (fun t hf => by
      obtain rfl := eq_last_of_flush3 t hf
      show (cfg1.win 3).cut (grid1.coords lastPoint) ((Reg1.dat1 V c).after 3 lastPoint) = _
      rw [Reg1.after1_3]
      exact (Memref.read_access_unit_zero (Elt Ideal) main_v42_1 (min_offset_zero lastPoint)
        (fun a => by rw [congrFun (min_offset_zero lastPoint) a]; simp) (minArray V c)).symm)
    (fun i => ⟨lastPoint, (flush1_3 lastPoint).mpr rfl, by
      show i ∈ ((View.whole main_v42_1).slice (win1_3.rect lastPoint)).set
      rw [View.set_slice_whole]
      exact View.mem_set_unit_zero (min_offset_zero lastPoint) _ i⟩)

/-- The count output likewise. -/
theorem final_cnt_array (c : Dev nD) : (Reg1.dat1 V c).arrAt 4 cfg1.N = cntArray V c :=
  (Reg1.dat1 V c).arrAt_eq_of_cover 4 (cntArray V c)
    (fun t hf => by
      obtain rfl := eq_last_of_flush4 t hf
      show (cfg1.win 4).cut (grid1.coords lastPoint) ((Reg1.dat1 V c).after 4 lastPoint) = _
      rw [Reg1.after1_4]
      exact (Memref.read_access_unit_zero (Elt Ideal) main_v42_2 (cnt_offset_zero lastPoint)
        (fun a => by rw [congrFun (cnt_offset_zero lastPoint) a]; simp) (cntArray V c)).symm)
    (fun i => ⟨lastPoint, (flush1_4 lastPoint).mpr rfl, by
      show i ∈ ((View.whole main_v42_2).slice (win1_4.rect lastPoint)).set
      rw [View.set_slice_whole]
      exact View.mem_set_unit_zero (cnt_offset_zero lastPoint) _ i⟩)

end Scalars

/-! ## The accumulators, over all clauses -/

section Accumulated

variable (V : (c : Dev nD) → (b : Ref sig .tc) → Buf (Elt Ideal) ((c : Thread nD τ).loc b))

/-- Clause `m`'s satisfaction as a function of a natural number (+∞ past the last clause, a value never read). -/
def satAt (c : Dev nD) (m : ℕ) : EReal :=
  if h : m < 4000000 then colSat (V c main_v37) (V c main_v41) ⟨m, h⟩ else ⊤

theorem satAt_fin (c : Dev nD) (n : Fin 4000000) : satAt V c n.val = colSat (V c main_v37) (V c main_v41) n := by
  unfold satAt; rw [dif_pos n.isLt]

/-- Clause `l` of point `t`'s block is clause `80000 t + l`. -/
theorem blkSat_eq_satAt (c : Dev nD) (t : Fin cfg1.N) (l : Fin 80000) :
    blkSat (Reg1.iblk1 V c 0 t) (Reg1.iblk1 V c 1 t) l = satAt V c (80000 * t.val + l.val) := by
  have hN : cfg1.N = 50 := N_1
  have ht := t.isLt
  have hl := l.isLt
  have hm : 80000 * t.val + l.val < 4000000 := by omega
  rw [blkSat_iblk V c t l ⟨80000 * t.val + l.val, hm⟩ rfl]
  unfold satAt; rw [dif_pos hm]

/-- A block's smallest satisfaction, over the naturals. -/
theorem block_min (c : Dev nD) (t : Fin cfg1.N) :
    (Finset.univ : Finset (Fin 80000)).fold min (Ideal.ofBits .f32 0x7F800000#32) (blkSat (Reg1.iblk1 V c 0 t) (Reg1.iblk1 V c 1 t))
      = (Finset.range 80000).fold min (Ideal.ofBits .f32 0x7F800000#32) (fun l => satAt V c (80000 * t.val + l)) := by
  rw [← Cert.LibBlocks.fold_fin_eq_fold_range]
  exact Finset.fold_congr fun l _ => blkSat_eq_satAt V c t l

/-- A block's number of satisfactions above one half, over the naturals. -/
theorem block_cnt (c : Dev nD) (t : Fin cfg1.N) :
    ∑ l : Fin 80000, hit (blkSat (Reg1.iblk1 V c 0 t) (Reg1.iblk1 V c 1 t) l)
      = ∑ l ∈ Finset.range 80000, hit (satAt V c (80000 * t.val + l)) := by
  rw [Finset.sum_range]
  exact Finset.sum_congr rfl fun l _ => by rw [blkSat_eq_satAt]

/-- After point `n` the running minimum is the smallest satisfaction of the first `80000 (n + 1)` clauses. -/
theorem acc_min (c : Dev nD) (n : ℕ) (hn : n < cfg1.N) :
    ((Reg1.acc V c n hn).1 : S1x1.Idx → EReal) (ix2 (0 : Fin 1) (0 : Fin 1))
      = (Finset.range (80000 * (n + 1))).fold min (Ideal.ofBits .f32 0x7F800000#32) (satAt V c) := by
  refine Cert.LibBlocks.fold_blocks min (Ideal.ofBits .f32 0x7F800000#32) min_posInf (satAt V c) 80000 cfg1.N
    (fun n hn => ((Reg1.acc V c n hn).1 : S1x1.Idx → EReal) (ix2 (0 : Fin 1) (0 : Fin 1))) ?_ ?_ n hn
  · intro h
    show (Reg1.stepMin (Reg1.iblk1 V c 0 ⟨0, h⟩) (Reg1.iblk1 V c 1 ⟨0, h⟩) (k1_pay2 (F := Ideal)) : S1x1.Idx → EReal) (ix2 (0 : Fin 1) (0 : Fin 1)) = _
    rw [stepMin_apply, pay2_apply, block_min]
  · intro n h h'
    show (Reg1.stepMin (Reg1.iblk1 V c 0 ⟨n + 1, h⟩) (Reg1.iblk1 V c 1 ⟨n + 1, h⟩) (Reg1.acc V c n h').1 : S1x1.Idx → EReal) (ix2 (0 : Fin 1) (0 : Fin 1)) = _
    rw [stepMin_apply, block_min]

/-- After point `n` the running count is the number of those clauses whose satisfaction is above one half. -/
theorem acc_cnt (c : Dev nD) (n : ℕ) (hn : n < cfg1.N) :
    ((Reg1.acc V c n hn).2 : S1x1.Idx → EReal) (ix2 (0 : Fin 1) (0 : Fin 1))
      = ∑ m ∈ Finset.range (80000 * (n + 1)), hit (satAt V c m) := by
  refine Cert.LibBlocks.sum_blocks (fun m => hit (satAt V c m)) 80000 cfg1.N
    (fun n hn => ((Reg1.acc V c n hn).2 : S1x1.Idx → EReal) (ix2 (0 : Fin 1) (0 : Fin 1))) ?_ ?_ n hn
  · intro h
    show (Reg1.stepCnt (Reg1.iblk1 V c 0 ⟨0, h⟩) (Reg1.iblk1 V c 1 ⟨0, h⟩) (k1_pay3 (F := Ideal)) : S1x1.Idx → EReal) (ix2 (0 : Fin 1) (0 : Fin 1)) = _
    rw [stepCnt_apply, pay3_apply, Ideal.ofBits_zero_f32, block_cnt]
  · intro n h h'
    show (Reg1.stepCnt (Reg1.iblk1 V c 0 ⟨n + 1, h⟩) (Reg1.iblk1 V c 1 ⟨n + 1, h⟩) (Reg1.acc V c n h').2 : S1x1.Idx → EReal) (ix2 (0 : Fin 1) (0 : Fin 1)) = _
    rw [stepCnt_apply, block_cnt]

/-- The minimum output: the smallest satisfaction of all clauses, from +∞. -/
theorem final1_min (c : Dev nD) :
    ((Reg1.dat1 V c).arrAt 3 cfg1.N : S1x1.Idx → EReal) (ix2 (0 : Fin 1) (0 : Fin 1))
      = (Finset.univ : Finset (Fin 4000000)).fold min (Ideal.ofBits .f32 0x7F800000#32)
          (fun n => colSat (V c main_v37) (V c main_v41) n) := by
  rw [final_min_array]
  refine (acc_min V c 49 lt_points).trans ?_
  rw [show 80000 * (49 + 1) = 4000000 by norm_num, ← Cert.LibBlocks.fold_fin_eq_fold_range]
  exact Finset.fold_congr fun n _ => satAt_fin V c n

/-- The count output: the number of clauses whose satisfaction is above one half. -/
theorem final1_cnt (c : Dev nD) :
    ((Reg1.dat1 V c).arrAt 4 cfg1.N : S1x1.Idx → EReal) (ix2 (0 : Fin 1) (0 : Fin 1))
      = ∑ n : Fin 4000000, hit (colSat (V c main_v37) (V c main_v41) n) := by
  rw [final_cnt_array]
  refine (acc_cnt V c 49 lt_points).trans ?_
  rw [show 80000 * (49 + 1) = 4000000 by norm_num, Finset.sum_range]
  exact Finset.sum_congr rfl fun n _ => by rw [satAt_fin]

end Accumulated

end Cert.KernelIdeal.Value1

end
-- ==== Proof.KIValue.lean ====
/-
  The idealized kernel program's four results as functions of its three arguments: the run's last valuation read at
  the result buffers. The assignments array is what the logistic kernel leaves; the clause satisfactions, their minimum
  and the count are what the clause kernel leaves, read over the stacked gathers the host operations make of the
  assignments, the variable words and the sign words — which is the specification's clause by clause.
-/
import proofs.«427304_j81003083202771_3_alg».proof.Proof.KIRunAll
import proofs.«427304_j81003083202771_3_alg».proof.Proof.KIHost
import proofs.«427304_j81003083202771_3_alg».proof.Proof.KIValue1
import proofs.«427304_j81003083202771_3_alg».proof.Proof.Spec

set_option maxRecDepth 16384

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- The three arguments on core `c`: the logits, the variable words, the sign words. -/
abbrev xs (c : Dev nD) := m ((c.tc : Thread nD τ).loc main_arg0)
abbrev vs (c : Dev nD) := m ((c.tc : Thread nD τ).loc main_arg1)
abbrev ss (c : Dev nD) := m ((c.tc : Thread nD τ).loc main_arg2)

/-- The logistic kernel leaves the soft assignments. -/
theorem o1_eq (c : Dev nD) : o1 m c = Cert.Spec.asgV (xs m c) :=
  (Reg0.final0_out (E0 m) c).trans rfl

/-- The assignments array is not touched again. -/
theorem V4_v0 (c : Dev nD) : V4 m (outs m) c main_v0 = Cert.Spec.asgV (xs m c) :=
  (V4_of m (outs m) c main_v0 (by decide)).trans <| (V3_of m (outs m) c main_v0 (by decide)).trans <|
    (V2_of m (outs m) c main_v0 (by decide)).trans <| by
      show Function.update (V0 m c) (Proc.devRef .tc main_v0) (outs m 1 main_v0 c) (Proc.devRef .tc main_v0) = _
      rw [Function.update_self, outs_v0, o1_eq]

/-- The clause kernel's two input arrays: the stacked gathers of the assignments at the variable words, the stacked sign words. -/
theorem E1_v37 (c : Dev nD) : E1 m c main_v37 = HostVal.gstack (Cert.Spec.asgV (xs m c)) (vs m c) := by
  show StableHlo.after hostOps1 (Function.update (V0 m c) (Proc.devRef .tc main_v0) (o1 m c)) (Proc.devRef .tc main_v37) = _
  rw [HostVal.v37_eq, Function.update_self, Function.update_of_ne (StableHlo.devRef_ne_of_ne (by decide)), o1_eq]
theorem E1_v41 (c : Dev nD) : E1 m c main_v41 = HostVal.sstack (ss m c) := by
  show StableHlo.after hostOps1 (Function.update (V0 m c) (Proc.devRef .tc main_v0) (o1 m c)) (Proc.devRef .tc main_v41) = _
  rw [HostVal.v41_eq, Function.update_of_ne (StableHlo.devRef_ne_of_ne (by decide))]

/-- Column by column the clause kernel's satisfaction is the specification's. -/
theorem colSat_eq (c : Dev nD) (n : Fin 4000000) :
    Value1.colSat (E1 m c main_v37) (E1 m c main_v41) n = Cert.Spec.csat (xs m c) (vs m c) (ss m c) n := by
  rw [E1_v37, E1_v41]
  unfold Value1.colSat Cert.Spec.csat Cert.Spec.lit
  simp only [HostVal.gstack_apply, HostVal.sstack_apply]

/-- The same as functions of the clause. -/
theorem colSat_fun (c : Dev nD) :
    Value1.colSat (E1 m c main_v37) (E1 m c main_v41) = Cert.Spec.csat (xs m c) (vs m c) (ss m c) :=
  funext (colSat_eq m c)

/-- What the clause kernel leaves in its three output arrays is in the last valuation before the reshapes. -/
theorem V3_out0 (c : Dev nD) : V3 m (outs m) c main_v42_0 = (Reg1.dat1 (E1 m) c).arrAt 2 cfg1.N := (hF1 m c 2).symm
theorem V3_out1 (c : Dev nD) : V3 m (outs m) c main_v42_1 = (Reg1.dat1 (E1 m) c).arrAt 3 cfg1.N := (hF1 m c 3).symm
theorem V3_out2 (c : Dev nD) : V3 m (outs m) c main_v42_2 = (Reg1.dat1 (E1 m) c).arrAt 4 cfg1.N := (hF1 m c 4).symm

theorem V4_v43 (c : Dev nD) : V4 m (outs m) c main_v43 = Cert.Spec.res1 (xs m c) (vs m c) (ss m c) := by
  funext i
  obtain ⟨n, rfl⟩ : ∃ n : Fin 4000000, i = ix1 n := ⟨i 0, eq_ix1 i⟩
  show StableHlo.after hostOps2 (V3 m (outs m) c) (Proc.devRef .tc main_v43) (ix1 n) = _
  rw [HostVal.v43_apply]
  show V3 m (outs m) c main_v42_0 (ix2 (0 : Fin 1) n) = _
  rw [V3_out0, Value1.final1_sat, colSat_eq]
  rfl

theorem V4_v44 (c : Dev nD) : V4 m (outs m) c main_v44 = Cert.Spec.res2 (xs m c) (vs m c) (ss m c) := by
  funext i
  obtain rfl : i = ix0 := eq_ix0 i
  show StableHlo.after hostOps2 (V3 m (outs m) c) (Proc.devRef .tc main_v44) ix0 = _
  rw [HostVal.v44_apply]
  show V3 m (outs m) c main_v42_1 (ix2 (0 : Fin 1) (0 : Fin 1)) = _
  rw [V3_out1, Value1.final1_min, colSat_fun]
  rfl

theorem V4_v45 (c : Dev nD) : V4 m (outs m) c main_v45 = Cert.Spec.res3 (xs m c) (vs m c) (ss m c) := by
  funext i
  obtain rfl : i = ix0 := eq_ix0 i
  show StableHlo.after hostOps2 (V3 m (outs m) c) (Proc.devRef .tc main_v45) ix0 = _
  rw [HostVal.v45_apply]
  show V3 m (outs m) c main_v42_2 (ix2 (0 : Fin 1) (0 : Fin 1)) = _
  rw [V3_out2, Value1.final1_cnt, colSat_fun]
  rfl

/-- An unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE VALUE RUN: every weakly fair execution terminates with the four results at the specification's functions of the
    arguments and the arguments unchanged. -/
theorem run_spec (ρ : Dev nD → PrngReg) :
    θ_run defs (onTc (τ := τ) (main (F := Ideal))) ⟨m, fun _ => 0, ρ⟩ fun r => ∀ c : Dev nD,
      r.2.mem ((c.tc : Thread nD τ).loc main_v0) = Cert.Spec.asgV (xs m c)
      ∧ r.2.mem ((c.tc : Thread nD τ).loc main_v43) = Cert.Spec.res1 (xs m c) (vs m c) (ss m c)
      ∧ r.2.mem ((c.tc : Thread nD τ).loc main_v44) = Cert.Spec.res2 (xs m c) (vs m c) (ss m c)
      ∧ r.2.mem ((c.tc : Thread nD τ).loc main_v45) = Cert.Spec.res3 (xs m c) (vs m c) (ss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c _ (mem_uc main_v0 (by decide))).trans (V4_v0 m c),
     (h c _ (mem_uc main_v43 (by decide))).trans (V4_v43 m c),
     (h c _ (mem_uc main_v44 (by decide))).trans (V4_v44 m c),
     (h c _ (mem_uc main_v45 (by decide))).trans (V4_v45 m c),
     (h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c)⟩) (run_all m ρ)

end Cert.KernelIdeal.Value

end
-- ==== Proof.RefValue.lean ====
/-
  The reference's four results, read off its run, are the functions of Spec.lean of the argument arrays.
-/
import proofs.«427304_j81003083202771_3_alg».proof.Proof.Gen.ReferenceIdeal.Run
import proofs.«427304_j81003083202771_3_alg».proof.Proof.Gen.ReferenceIdeal.Read
import proofs.«427304_j81003083202771_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read
open scoped BigOperators

/-- The word 0x3F800000 encodes one. -/
theorem ofBits_one_f32 : Ideal.ofBits .f32 0x3F800000#32 = 1 := by
  simp [Ideal.ofBits, Ideal.ieee, -EReal.coe_mul]; norm_num

/-- The assignments at an index: the logistic of the logit there. -/
theorem v5_apply (x0 : (⟨S1000000, .f32⟩ : BufTy).Contents (Elt Ideal)) (i : S1000000.Idx) :
    val_main_v5 (F := Ideal) x0 i = Ideal.logistic (x0 i) := by
  rw [val_main_v5_apply, val_main_v4_apply, val_main_cst_0_apply, val_main_v3_apply, val_main_v2_apply,
    val_main_cst_apply, val_main_v1_apply, val_main_v0_apply]
  simp only [Ideal.hostDivf_def, Ideal.ofBits_def, Ideal.addf_def, Ideal.hostUnary_exp_def, Ideal.hostNegf_def,
    Ideal.negf_def, ofBits_one_f32]
  rfl

/-- The first result: every variable's soft assignment. -/
theorem ref_v5 (x0 : (⟨S1000000, .f32⟩ : BufTy).Contents (Elt Ideal)) :
    val_main_v5 (F := Ideal) x0 = Cert.Spec.asgV x0 := by
  funext i
  exact v5_apply x0 i

/-- The start index word at `(n, j, 0)`: the variable word there, with the table's length added when it is negative. -/
theorem v11_apply (x1 : (⟨S4000000x3, .i32⟩ : BufTy).Contents (Elt Ideal)) (n : Fin 4000000) (j : Fin 3) :
    val_main_v11 (F := Ideal) x1 (takeIdx (ix2 n j))
      = Scalar.select (IntOp.cmpi .slt (x1 (ix2 n j)) 0#32) (IntOp.addi (x1 (ix2 n j)) 1000000#32) (x1 (ix2 n j)) := by
  have e : idx_main_v11 (takeIdx (ix2 n j)) = ix2 n j := by
    funext a; match a with | ⟨0, _⟩ => rfl | ⟨1, _⟩ => rfl
  rw [val_main_v11_apply, e, val_main_v10_apply, val_main_v7_apply, val_main_v6_apply, val_main_c_apply,
    val_main_v9_apply, val_main_v8_apply, val_main_c_1_apply]

/-- The gathered value at `(n, j)`: the assignment of the variable the word there names. -/
theorem v12_apply (x0 : (⟨S1000000, .f32⟩ : BufTy).Contents (Elt Ideal)) (x1 : (⟨S4000000x3, .i32⟩ : BufTy).Contents (Elt Ideal))
    (n : Fin 4000000) (j : Fin 3) :
    val_main_v12 (F := Ideal) x0 x1 (ix2 n j) = Cert.Spec.asgV x0 (ix1 (Cert.Spec.pick (x1 (ix2 n j)))) := by
  unfold val_main_v12
  refine (gather_take_apply (N := 1000000) (R := 4000000) (C := 3) (by decide)
    gather_S1000000_S4000000x3x1_S4000000x3_n_0_n_n_0_2_1_wf (val_main_v5 (F := Ideal) x0) (val_main_v11 (F := Ideal) x1) (ix2 n j)).trans ?_
  rw [v5_apply]
  unfold Cert.Spec.asgV Cert.Spec.pick
  simp only [v11_apply]

/-- The literal's value at `(n, j)`. -/
theorem v17_apply (x0 : (⟨S1000000, .f32⟩ : BufTy).Contents (Elt Ideal)) (x1 x2 : (⟨S4000000x3, .i32⟩ : BufTy).Contents (Elt Ideal))
    (n : Fin 4000000) (j : Fin 3) :
    val_main_v17 (F := Ideal) x0 x1 x2 (ix2 n j) = Cert.Spec.lit x0 x1 x2 n j := by
  rw [val_main_v17_apply, val_main_v14_apply, val_main_v13_apply, val_main_c_2_apply, val_main_v16_apply,
    val_main_v15_apply, val_main_cst_3_apply, v12_apply]
  rfl

/-- The shape fact of the clause maximum in the form that names the inserted index. -/
theorem reduces_d1 : S4000000x3.Reduces [1] S4000000 := by decide

/-- The index over clause `n` with `k` on the literal axis is `(n, k)`. -/
theorem lift_d1 (n : Fin 4000000) (k : Fin 3) : reduces_d1.lift (ix1 n) k = ix2 n k := by
  funext a; match a with | ⟨0, _⟩ => rfl | ⟨1, _⟩ => rfl

/-- A clause's satisfaction at clause `n`. -/
theorem v18_apply (x0 : (⟨S1000000, .f32⟩ : BufTy).Contents (Elt Ideal)) (x1 x2 : (⟨S4000000x3, .i32⟩ : BufTy).Contents (Elt Ideal))
    (n : Fin 4000000) :
    val_main_v18 (F := Ideal) x0 x1 x2 (ix1 n) = Cert.Spec.csat x0 x1 x2 n := by
  have e := Host.reduce_eq_fold_single (s := S4000000x3) (t := S4000000) (a := 1) (u := S_)
    (FloatOps.maximumf (F := Ideal) (φ := .f32)) (val_main_v17 (F := Ideal) x0 x1 x2) (val_main_cst_4 (F := Ideal))
    reducesTo_S4000000x3_S4000000_d1 reduces_d1 h_S_ (ix1 n)
  unfold val_main_v18
  refine e.trans ?_
  unfold Cert.Spec.csat
  rw [val_main_cst_4_apply]
  have hk : ∀ k : Fin 3, val_main_v17 (F := Ideal) x0 x1 x2 (reduces_d1.lift (ix1 n) k) = Cert.Spec.lit x0 x1 x2 n k :=
    fun k => by rw [lift_d1, v17_apply]
  exact Finset.fold_congr (fun k _ => hk k)

/-- The second result: every clause's satisfaction. -/
theorem ref_v18 (x0 : (⟨S1000000, .f32⟩ : BufTy).Contents (Elt Ideal)) (x1 x2 : (⟨S4000000x3, .i32⟩ : BufTy).Contents (Elt Ideal)) :
    val_main_v18 (F := Ideal) x0 x1 x2 = Cert.Spec.res1 x0 x1 x2 := by
  funext i
  obtain ⟨n, rfl⟩ : ∃ n : Fin 4000000, i = ix1 n := ⟨i 0, eq_ix1 i⟩
  rw [v18_apply]
  rfl

/-- The clause index set is its one coordinate's range. -/
def idxEquiv1 : S4000000.Idx ≃ Fin 4000000 where
  toFun i := i 0
  invFun := ix1
  left_inv i := (eq_ix1 i).symm
  right_inv _ := rfl

/-- A minimum over every clause, from +∞, of an array read by its one coordinate. -/
theorem reduce_min_all (w : S4000000.Idx → Ideal .f32) (g : Fin 4000000 → Ideal .f32) (hw : ∀ n : Fin 4000000, w (ix1 n) = g n)
    (i : S_.Idx) :
    Host.reduce (FloatOps.minimumf (F := Ideal) (φ := .f32)) w (val_main_cst_5 (F := Ideal)) reducesTo_S4000000_S_d0 h_S_ i
      = (Finset.univ : Finset (Fin 4000000)).fold min (Ideal.ofBits .f32 0x7F800000#32) g := by
  rw [Host.reduce_eq_fold, Finset.filter_true_of_mem (fun j _ => funext fun b => b.elim0), val_main_cst_5_apply,
    ← Finset.map_univ_equiv idxEquiv1.symm, Finset.fold_map]
  exact Finset.fold_congr (fun n _ => hw n)

/-- The formula's satisfaction: the minimum over every clause. -/
theorem v19_apply (x0 : (⟨S1000000, .f32⟩ : BufTy).Contents (Elt Ideal)) (x1 x2 : (⟨S4000000x3, .i32⟩ : BufTy).Contents (Elt Ideal))
    (i : S_.Idx) :
    val_main_v19 (F := Ideal) x0 x1 x2 i = Cert.Spec.allSat x0 x1 x2 := by
  unfold val_main_v19 Cert.Spec.allSat
  exact reduce_min_all _ _ (v18_apply x0 x1 x2) i

/-- The third result: the least clause satisfaction. -/
theorem ref_v19 (x0 : (⟨S1000000, .f32⟩ : BufTy).Contents (Elt Ideal)) (x1 x2 : (⟨S4000000x3, .i32⟩ : BufTy).Contents (Elt Ideal)) :
    val_main_v19 (F := Ideal) x0 x1 x2 = Cert.Spec.res2 x0 x1 x2 := by
  funext i
  exact v19_apply x0 x1 x2 i

/-- A bit converted to a float is one or zero. -/
theorem uitofp_bit (b : BitVec 1) :
    FloatOps.uitofp (F := Ideal) .f32 b = Scalar.select b (Ideal.ofBits .f32 0x3F800000#32) (Ideal.ofBits .f32 0x00000000#32) := by
  rcases BitVec.eq_zero_or_eq_one b with h | h <;> subst h
  · rw [select_zero, Ideal.ofBits_zero_f32]
    show (((0#1 : BitVec 1).toNat : ℝ) : EReal) = 0
    simp
  · rw [select_one, ofBits_one_f32]
    show (((1#1 : BitVec 1).toNat : ℝ) : EReal) = 1
    simp

/-- The count's summand at clause `n`. -/
theorem v22_apply (x0 : (⟨S1000000, .f32⟩ : BufTy).Contents (Elt Ideal)) (x1 x2 : (⟨S4000000x3, .i32⟩ : BufTy).Contents (Elt Ideal))
    (n : Fin 4000000) :
    val_main_v22 (F := Ideal) x0 x1 x2 (ix1 n) = Cert.Spec.hit x0 x1 x2 n := by
  rw [val_main_v22_apply, val_main_v21_apply, val_main_v20_apply, val_main_cst_6_apply, v18_apply, uitofp_bit]
  rfl

/-- The fourth result: the number of clauses whose satisfaction exceeds one half (the sum starts from zero). -/
theorem ref_v23 (x0 : (⟨S1000000, .f32⟩ : BufTy).Contents (Elt Ideal)) (x1 x2 : (⟨S4000000x3, .i32⟩ : BufTy).Contents (Elt Ideal)) :
    val_main_v23 (F := Ideal) x0 x1 x2 = Cert.Spec.res3 x0 x1 x2 := by
  funext i
  rw [val_main_v23_apply, val_main_cst_7_apply]
  show Ideal.ofBits .f32 0x00000000#32 + _ = _
  rw [Ideal.ofBits_zero_f32, zero_add]
  unfold Cert.Spec.res3 Cert.Spec.nSat
  exact (Fintype.sum_equiv idxEquiv1.symm _ _ (fun n => (v22_apply x0 x1 x2 n).symm)).symm

open Idealize.ShloMosaic.TcCoe Idealize.SL.Sem Idealize.ShloMosaic.StableHlo in
/-- Every weakly fair execution of the reference terminates with its four results at the specification's functions of the
    argument arrays, and the arguments unchanged. -/
theorem run_spec (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v5) = Cert.Spec.asgV (m ((c.tc : Thread nD τ).loc main_arg0))
      ∧ r.2.mem ((c.tc : Thread nD τ).loc main_v18)
          = Cert.Spec.res1 (m ((c.tc : Thread nD τ).loc main_arg0)) (m ((c.tc : Thread nD τ).loc main_arg1)) (m ((c.tc : Thread nD τ).loc main_arg2))
      ∧ r.2.mem ((c.tc : Thread nD τ).loc main_v19)
          = Cert.Spec.res2 (m ((c.tc : Thread nD τ).loc main_arg0)) (m ((c.tc : Thread nD τ).loc main_arg1)) (m ((c.tc : Thread nD τ).loc main_arg2))
      ∧ r.2.mem ((c.tc : Thread nD τ).loc main_v23)
          = Cert.Spec.res3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.ReferenceIdeal.defs _ _).mono (fun _ h c => by
      obtain ⟨h5, h18, h19, h23, ha0, ha1, ha2⟩ := h c
      exact ⟨h5.trans ((val_main_v5_eq _).trans (ref_v5 _)),
        h18.trans ((val_main_v18_eq _ _ _).trans (ref_v18 _ _ _)),
        h19.trans ((val_main_v19_eq _ _ _).trans (ref_v19 _ _ _)),
        h23.trans ((val_main_v23_eq _ _ _).trans (ref_v23 _ _ _)), ha0, ha1, ha2⟩)
    (Cert.ReferenceIdeal.Value.run (F := Ideal) m ρ)

end Cert.ReferenceIdeal.RefValue

end
-- ==== Proof.lean ====
/-
  The certificate's five claims for a soft SAT evaluation: a logistic over a million logits, a gather of three literal
  values per clause, the per-clause maximum, and over four million clauses the minimum and the count of clauses above one
  half — a two-kernel program (a logistic kernel; a clause kernel that walks fifty blocks of eighty thousand clauses with
  two carried accumulators) against a plain array reference.

  Frames. Each kernel program is the library's list of segments (region, host stretch, region, host stretch); each
  region's record comes from its kernel's triple — the logistic kernel's one load and one covering store; the clause
  kernel's three cases (the first point resets the accumulators, the last copies them out) — and the arguments are never
  written. The reference is host operations only: its frame is its run with the results dropped.

  Values, at the extended reals. Both sides compute: `σ(x)`, the logistic, which the kernel names as one operation and the
  reference spells `1 / (1 + e^(−x))` — one function there; per clause the largest of `σ` or `1 − σ` of the three gathered
  variables (index wrapped and clamped identically on both sides); the minimum over all clauses, which the kernel takes
  block by block into a running minimum from +∞ — minimum is associative and commutative, so the blocks' minima fold to
  the whole; and the count, a sum of zeros and ones taken block by block — addition of extended reals is associative
  and commutative, so the blocks' sums add to the whole, and no finiteness is used.
  The idealization rewrote nothing, so `preserves` is `True`.
-/
import proofs.«427304_j81003083202771_3_alg».proof.Defs
import proofs.«427304_j81003083202771_3_alg».proof.Proof.Gen.Kernel
import proofs.«427304_j81003083202771_3_alg».proof.Proof.Gen.KernelIdeal
import proofs.«427304_j81003083202771_3_alg».proof.Proof.Gen.ReferenceIdeal
import proofs.«427304_j81003083202771_3_alg».proof.Proof.Gen.Pre_finite_inputs
import proofs.«427304_j81003083202771_3_alg».proof.Proof.KRun
import proofs.«427304_j81003083202771_3_alg».proof.Proof.KIRun
import proofs.«427304_j81003083202771_3_alg».proof.Proof.KIValue
import proofs.«427304_j81003083202771_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.RefValue.run_spec m ρ)

/-- Both idealized programs, from memories that agree on the arguments, end at the specification's four functions of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Value.run_spec m ρ, ?_⟩
  refine (θ_run Cert.ReferenceIdeal.defs _ _).mono (fun _ h c => ?_) (Cert.ReferenceIdeal.RefValue.run_spec m' ρ')
  obtain ⟨h0, h1, h2, h3, ha⟩ := h c
  obtain ⟨e0, e1, e2⟩ := hagree c
  refine ⟨?_, ?_, ?_, ?_, ha⟩
  · rw [h0, e0]
  · rw [h1, e0, e1, e2]
  · rw [h2, e0, e1, e2]
  · rw [h3, e0, e1, e2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
